-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x100 : Shape := ⟨2, ![512, 100]⟩
abbrev S100x100 : Shape := ⟨2, ![100, 100]⟩
abbrev S100 : Shape := ⟨1, ![100]⟩
abbrev S5000x100x100 : Shape := ⟨3, ![5000, 100, 100]⟩
abbrev S5000x100 : Shape := ⟨2, ![5000, 100]⟩
abbrev S10x500000 : Shape := ⟨2, ![10, 500000]⟩
abbrev S10 : Shape := ⟨1, ![10]⟩
abbrev S_ : Shape := ⟨0, ![]⟩

class Facts : Prop where
  bcast_S_S512x100 : S_.BroadcastsInDim S512x100 (![] : Fin 0 → Fin S512x100.rank)
  reducesTo_S512x100_S_d0_1 : S512x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S5000x100x100 : S_.BroadcastsInDim S5000x100x100 (![] : Fin 0 → Fin S5000x100x100.rank)
  reducesTo_S5000x100x100_S_d0_1_2 : S5000x100x100.ReducesTo [0, 1, 2] S_
  bcast_S_S5000x100 : S_.BroadcastsInDim S5000x100 (![] : Fin 0 → Fin S5000x100.rank)
  reducesTo_S5000x100_S_d0_1 : S5000x100.ReducesTo [0, 1] S_
  bcast_S_S10x500000 : S_.BroadcastsInDim S10x500000 (![] : Fin 0 → Fin S10x500000.rank)
  reducesTo_S10x500000_S_d0_1 : S10x500000.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S5000x100 .f32) (main_arg5 : FVec F S10x500000 .f32) (main_arg6 : FVec F S10 .f32) (main_v13 : IVec S_ 1) (main_v16 : IVec S5000x100x100 1) : IVec S_ 1 :=
  let main_c_5 : IVec S_ 1 := constantI S_ 1 1#1
  let main_v17 : IVec S_ 1 := (fun x v => Host.reduce IntOp.andi x v reducesTo_S5000x100x100_S_d0_1_2 h_S_) main_v16 main_c_5
  let main_v18 : IVec S_ 1 := andi main_v13 main_v17
  let main_v19 : FVec F S5000x100 .f32 := Host.absf main_arg4
  let main_cst_6 : FVec F S_ .f32 := constant S_ .f32 0x7F800000#32
  let main_v20 : FVec F S5000x100 .f32 := broadcastInDim S5000x100 ![] bcast_S_S5000x100 main_cst_6
  let main_v21 : IVec S5000x100 1 := cmpf .olt main_v19 main_v20
  let main_c_7 : IVec S_ 1 := constantI S_ 1 1#1
  let main_v22 : IVec S_ 1 := (fun x v => Host.reduce IntOp.andi x v reducesTo_S5000x100_S_d0_1 h_S_) main_v21 main_c_7
  let main_v23 : IVec S_ 1 := andi main_v18 main_v22
  let main_v24 : FVec F S10x500000 .f32 := Host.absf main_arg5
  let main_cst_8 : FVec F S_ .f32 := constant S_ .f32 0x7F800000#32
  let main_v25 : FVec F S10x500000 .f32 := broadcastInDim S10x500000 ![] bcast_S_S10x500000 main_cst_8
  let main_v26 : IVec S10x500000 1 := cmpf .olt main_v24 main_v25
  let main_c_9 : IVec S_ 1 := constantI S_ 1 1#1
  let main_v27 : IVec S_ 1 := (fun x v => Host.reduce IntOp.andi x v reducesTo_S10x500000_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S512x100 .f32) (main_arg1 : FVec F S100x100 .f32) (main_arg2 : FVec F S100 .f32) (main_arg3 : FVec F S5000x100x100 .f32) (main_arg4 : FVec F S5000x100 .f32) (main_arg5 : FVec F S10x500000 .f32) (main_arg6 : FVec F S10 .f32) : IVec S_ 1 :=
  let main_v0 : FVec F S512x100 .f32 := Host.absf main_arg0
  let main_cst : FVec F S_ .f32 := constant S_ .f32 0x7F800000#32
  let main_v1 : FVec F S512x100 .f32 := broadcastInDim S512x100 ![] bcast_S_S512x100 main_cst
  let main_v2 : IVec S512x100 1 := cmpf .olt main_v0 main_v1
  let main_c : IVec S_ 1 := constantI S_ 1 1#1
  let main_v3 : IVec S_ 1 := (fun x v => Host.reduce IntOp.andi x v reducesTo_S512x100_S_d0_1 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S5000x100x100 .f32 := Host.absf main_arg3
  let main_cst_4 : FVec F S_ .f32 := constant S_ .f32 0x7F800000#32
  let main_v15 : FVec F S5000x100x100 .f32 := broadcastInDim S5000x100x100 ![] bcast_S_S5000x100x100 main_cst_4
  let main_v16 : IVec S5000x100x100 1 := cmpf .olt main_v14 main_v15
  fn_part1 (F := F) main_arg4 main_arg5 main_arg6 main_v13 main_v16
-- ==== Kernel.lean ====
abbrev S512x100 : Shape := ⟨2, ![512, 100]⟩
abbrev S100x100 : Shape := ⟨2, ![100, 100]⟩
abbrev S100 : Shape := ⟨1, ![100]⟩
abbrev S5000x100x100 : Shape := ⟨3, ![5000, 100, 100]⟩
abbrev S5000x100 : Shape := ⟨2, ![5000, 100]⟩
abbrev S10x500000 : Shape := ⟨2, ![10, 500000]⟩
abbrev S10 : Shape := ⟨1, ![10]⟩
abbrev S500000x100 : Shape := ⟨2, ![500000, 100]⟩
abbrev S1x500000 : Shape := ⟨2, ![1, 500000]⟩
abbrev S_ : Shape := ⟨0, ![]⟩
abbrev S507904x100 : Shape := ⟨2, ![507904, 100]⟩
abbrev S1x507904 : Shape := ⟨2, ![1, 507904]⟩
abbrev S10x507904 : Shape := ⟨2, ![10, 507904]⟩
abbrev S1x100 : Shape := ⟨2, ![1, 100]⟩
abbrev S1x10 : Shape := ⟨2, ![1, 10]⟩
abbrev S512x10 : Shape := ⟨2, ![512, 10]⟩
abbrev S256x100 : Shape := ⟨2, ![256, 100]⟩
abbrev S8192x100 : Shape := ⟨2, ![8192, 100]⟩
abbrev S1x8192 : Shape := ⟨2, ![1, 8192]⟩
abbrev S10x8192 : Shape := ⟨2, ![10, 8192]⟩
abbrev S256x10 : Shape := ⟨2, ![256, 10]⟩
abbrev S100x8192 : Shape := ⟨2, ![100, 8192]⟩
abbrev S256x8192 : Shape := ⟨2, ![256, 8192]⟩
abbrev S8192x10 : Shape := ⟨2, ![8192, 10]⟩

abbrev nBuf : Space → Nat
  | .hbm => 23
  | .vmem => 15
  | .smem => 0
  | _ => 0

abbrev bufTy : (tb : Table) → Fin (tcTables nBuf tb) → BufTy
  | .hbm, ⟨0, _⟩ => ⟨S512x100, .f32⟩
  | .hbm, ⟨1, _⟩ => ⟨S100x100, .f32⟩
  | .hbm, ⟨2, _⟩ => ⟨S100, .f32⟩
  | .hbm, ⟨3, _⟩ => ⟨S5000x100x100, .f32⟩
  | .hbm, ⟨4, _⟩ => ⟨S5000x100, .f32⟩
  | .hbm, ⟨5, _⟩ => ⟨S10x500000, .f32⟩
  | .hbm, ⟨6, _⟩ => ⟨S10, .f32⟩
  | .hbm, ⟨7, _⟩ => ⟨S500000x100, .f32⟩
  | .hbm, ⟨8, _⟩ => ⟨S1x500000, .f32⟩
  | .hbm, ⟨9, _⟩ => ⟨S_, .i32⟩
  | .hbm, ⟨10, _⟩ => ⟨S_, .f32⟩
  | .hbm, ⟨11, _⟩ => ⟨S507904x100, .f32⟩
  | .hbm, ⟨12, _⟩ => ⟨S_, .i32⟩
  | .hbm, ⟨13, _⟩ => ⟨S_, .f32⟩
  | .hbm, ⟨14, _⟩ => ⟨S1x507904, .f32⟩
  | .hbm, ⟨15, _⟩ => ⟨S_, .i32⟩
  | .hbm, ⟨16, _⟩ => ⟨S_, .f32⟩
  | .hbm, ⟨17, _⟩ => ⟨S10x507904, .f32⟩
  | .hbm, ⟨18, _⟩ => ⟨S507904x100, .bf16⟩
  | .hbm, ⟨19, _⟩ => ⟨S10x507904, .bf16⟩
  | .hbm, ⟨20, _⟩ => ⟨S1x100, .f32⟩
  | .hbm, ⟨21, _⟩ => ⟨S1x10, .f32⟩
  | .hbm, ⟨22, _⟩ => ⟨S512x10, .f32⟩
  | .local _ .vmem, ⟨0, _⟩ => ⟨S256x100, .f32⟩
  | .local _ .vmem, ⟨1, _⟩ => ⟨S256x100, .f32⟩
  | .local _ .vmem, ⟨2, _⟩ => ⟨S100x100, .f32⟩
  | .local _ .vmem, ⟨3, _⟩ => ⟨S1x100, .f32⟩
  | .local _ .vmem, ⟨4, _⟩ => ⟨S8192x100, .bf16⟩
  | .local _ .vmem, ⟨5, _⟩ => ⟨S8192x100, .bf16⟩
  | .local _ .vmem, ⟨6, _⟩ => ⟨S1x8192, .f32⟩
  | .local _ .vmem, ⟨7, _⟩ => ⟨S1x8192, .f32⟩
  | .local _ .vmem, ⟨8, _⟩ => ⟨S10x8192, .bf16⟩
  | .local _ .vmem, ⟨9, _⟩ => ⟨S10x8192, .bf16⟩
  | .local _ .vmem, ⟨10, _⟩ => ⟨S1x10, .f32⟩
  | .local _ .vmem, ⟨11, _⟩ => ⟨S256x10, .f32⟩
  | .local _ .vmem, ⟨12, _⟩ => ⟨S256x10, .f32⟩
  | .local _ .vmem, ⟨13, _⟩ => ⟨S256x100, .bf16⟩
  | .local _ .vmem, ⟨14, _⟩ => ⟨S256x10, .f32⟩
  | _, _ => ⟨S512x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 62], ![false, false]⟩

def k0_cond2 (i : grid0.Coords) : BitVec 1 :=
  let arg1 : BitVec 32 := BitVec.ofNat 32 (i 1).val
  let c61_i32 : BitVec 32 := 61#32
  let v22 : BitVec 1 := Scalar.cmpi .eq arg1 c61_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x100 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S10x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S5000x100x100_S500000x100 : S5000x100x100.ShapeCasts S500000x100
  shapeCasts_S5000x100_S1x500000 : S5000x100.ShapeCasts S1x500000
  pads_S500000x100_S507904x100_079040_000 : S500000x100.Pads (![0, 0] : Fin 2 → Nat) ![7904, 0] ![0, 0] S507904x100
  h_S_ : 0 < S_.numel
  pads_S1x500000_S1x507904_000_079040 : S1x500000.Pads (![0, 0] : Fin 2 → Nat) ![0, 7904] ![0, 0] S1x507904
  pads_S10x500000_S10x507904_000_079040 : S10x500000.Pads (![0, 0] : Fin 2 → Nat) ![0, 7904] ![0, 0] S10x507904
  bitsLt_bf16_f32 : FTy.bits .bf16 < FTy.bits .f32
  shapeCasts_S100_S1x100 : S100.ShapeCasts S1x100
  shapeCasts_S10_S1x10 : S10.ShapeCasts S1x10
  inb_S256x100_S256x100_0_0 : ∀ a, (![0, 0] : Fin 2 → Nat) a + S256x100.size a ≤ S256x100.size a
  h_S256x100 : 0 < S256x100.numel
  inb_S100x100_S100x100_0_0 : ∀ a, (![0, 0] : Fin 2 → Nat) a + S100x100.size a ≤ S100x100.size a
  h_S100x100 : 0 < S100x100.numel
  transposes_S100x100_p1_0_S100x100 : S100x100.Transposes [1, 0] S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S256x100 : S1x100.Broadcasts S256x100
  shapeCasts_S256x100_S256x100 : S256x100.ShapeCasts S256x100
  packedbf16_S256x100_S256x100_0_0 : (Rect.unit (s := S256x100) ![0, 0] S256x100.size inb_S256x100_S256x100_0_0).PackedRows (EltTy.packing .bf16)
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S8192x100_S8192x100_0_0 : ∀ a, (![0, 0] : Fin 2 → Nat) a + S8192x100.size a ≤ S8192x100.size a
  h_S8192x100 : 0 < S8192x100.numel
  shapeCasts_S8192x100_S8192x100 : S8192x100.ShapeCasts S8192x100
  transposes_S8192x100_p1_0_S100x8192 : S8192x100.Transposes [1, 0] S100x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S10x8192_S10x8192_0_0 : ∀ a, (![0, 0] : Fin 2 → Nat) a + S10x8192.size a ≤ S10x8192.size a
  h_S10x8192 : 0 < S10x8192.numel
  shapeCasts_S10x8192_S10x8192 : S10x8192.ShapeCasts S10x8192
  transposes_S10x8192_p1_0_S8192x10 : S10x8192.Transposes [1, 0] S8192x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  dot_S256x100_S100x100_S256x100_1_0_0_1_n_n_wf : DotDims.WF S256x100 S100x100 S256x100 [1] [0] [0] [1] [] []
  dot_S256x100_S100x8192_S256x8192_1_0_0_1_n_n_wf : DotDims.WF S256x100 S100x8192 S256x8192 [1] [0] [0] [1] [] []
  dot_S256x8192_S8192x10_S256x10_1_0_0_1_n_n_wf : DotDims.WF S256x8192 S8192x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x100.size a ≤ S512x100.size a
  hwx0_0 : ∀ i : grid0.Coords, EltTy.bits .f32 = 32 ∨ (Rect.block (s := S512x100) S256x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x100.size a ≤ S507904x100.size a
  hwx0_3 : ∀ i : grid0.Coords, EltTy.bits .bf16 = 32 ∨ (Rect.block (s := S507904x100) S8192x100.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x507904.size a
  hwx0_4 : ∀ i : grid0.Coords, EltTy.bits .f32 = 32 ∨ (Rect.block (s := S1x507904) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x8192.size a ≤ S10x507904.size a
  hwx0_5 : ∀ i : grid0.Coords, EltTy.bits .bf16 = 32 ∨ (Rect.block (s := S10x507904) S10x8192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x10.size a ≤ S512x10.size a
  hwx0_7 : ∀ i : grid0.Coords, EltTy.bits .f32 = 32 ∨ (Rect.block (s := S512x10) S256x10.size (cc0_transform_7 i) (hinb0_7 i)).WholeWords (EltTy.packing .f32)

variable [Facts₀]

def dot_S256x100_S100x100_S256x100_1_0_0_1_n_n : DotDims S256x100 S100x100 S256x100 where
  lhsContracting := [1]
  rhsContracting := [0]
  lhsNonContracting := [0]
  rhsNonContracting := [1]
  lhsBatch := []
  rhsBatch := []
  wf := dot_S256x100_S100x100_S256x100_1_0_0_1_n_n_wf
def dot_S256x100_S100x8192_S256x8192_1_0_0_1_n_n : DotDims S256x100 S100x8192 S256x8192 where
  lhsContracting := [1]
  rhsContracting := [0]
  lhsNonContracting := [0]
  rhsNonContracting := [1]
  lhsBatch := []
  rhsBatch := []
  wf := dot_S256x100_S100x8192_S256x8192_1_0_0_1_n_n_wf
def dot_S256x8192_S8192x10_S256x10_1_0_0_1_n_n : DotDims S256x8192 S8192x10 S256x10 where
  lhsContracting := [1]
  rhsContracting := [0]
  lhsNonContracting := [0]
  rhsNonContracting := [1]
  lhsBatch := []
  rhsBatch := []
  wf := dot_S256x8192_S8192x10_S256x10_1_0_0_1_n_n_wf

abbrev win0_0 : Pipeline.Window sig grid0 :=
  Pipeline.Window.ofSpec (Memref.whole main_arg0) S256x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S512x100 : Shape := ⟨2, ![512, 100]⟩
abbrev S100x100 : Shape := ⟨2, ![100, 100]⟩
abbrev S100 : Shape := ⟨1, ![100]⟩
abbrev S5000x100x100 : Shape := ⟨3, ![5000, 100, 100]⟩
abbrev S5000x100 : Shape := ⟨2, ![5000, 100]⟩
abbrev S10x500000 : Shape := ⟨2, ![10, 500000]⟩
abbrev S10 : Shape := ⟨1, ![10]⟩
abbrev S1x100 : Shape := ⟨2, ![1, 100]⟩
abbrev S512x5000x100 : Shape := ⟨3, ![512, 5000, 100]⟩
abbrev S1x5000x100 : Shape := ⟨3, ![1, 5000, 100]⟩
abbrev S512x500000 : Shape := ⟨2, ![512, 500000]⟩
abbrev S500000x10 : Shape := ⟨2, ![500000, 10]⟩
abbrev S512x10 : Shape := ⟨2, ![512, 10]⟩
abbrev S1x10 : Shape := ⟨2, ![1, 10]⟩

abbrev nBuf : Space → Nat
  | .hbm => 22
  | .vmem => 0
  | .smem => 0
  | _ => 0

abbrev bufTy : (tb : Table) → Fin (tcTables nBuf tb) → BufTy
  | .hbm, ⟨0, _⟩ => ⟨S512x100, .f32⟩
  | .hbm, ⟨1, _⟩ => ⟨S100x100, .f32⟩
  | .hbm, ⟨2, _⟩ => ⟨S100, .f32⟩
  | .hbm, ⟨3, _⟩ => ⟨S5000x100x100, .f32⟩
  | .hbm, ⟨4, _⟩ => ⟨S5000x100, .f32⟩
  | .hbm, ⟨5, _⟩ => ⟨S10x500000, .f32⟩
  | .hbm, ⟨6, _⟩ => ⟨S10, .f32⟩
  | .hbm, ⟨7, _⟩ => ⟨S100x100, .f32⟩
  | .hbm, ⟨8, _⟩ => ⟨S512x100, .f32⟩
  | .hbm, ⟨9, _⟩ => ⟨S1x100, .f32⟩
  | .hbm, ⟨10, _⟩ => ⟨S512x100, .f32⟩
  | .hbm, ⟨11, _⟩ => ⟨S512x100, .f32⟩
  | .hbm, ⟨12, _⟩ => ⟨S512x5000x100, .f32⟩
  | .hbm, ⟨13, _⟩ => ⟨S1x5000x100, .f32⟩
  | .hbm, ⟨14, _⟩ => ⟨S512x5000x100, .f32⟩
  | .hbm, ⟨15, _⟩ => ⟨S512x5000x100, .f32⟩
  | .hbm, ⟨16, _⟩ => ⟨S512x500000, .f32⟩
  | .hbm, ⟨17, _⟩ => ⟨S500000x10, .f32⟩
  | .hbm, ⟨18, _⟩ => ⟨S512x10, .f32⟩
  | .hbm, ⟨19, _⟩ => ⟨S1x10, .f32⟩
  | .hbm, ⟨20, _⟩ => ⟨S512x10, .f32⟩
  | .hbm, ⟨21, _⟩ => ⟨S512x10, .f32⟩
  | _, _ => ⟨S512x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S100x100_S100x100_1_0 : S100x100.Transposes [1, 0] S100x100
  bcast_S100_S1x100_1 : S100.BroadcastsInDim S1x100 (![1] : Fin 1 → Fin S1x100.rank)
  bcast_S1x100_S512x100_0_1 : S1x100.BroadcastsInDim S512x100 (![0, 1] : Fin 2 → Fin S512x100.rank)
  bcast_S5000x100_S1x5000x100_1_2 : S5000x100.BroadcastsInDim S1x5000x100 (![1, 2] : Fin 2 → Fin S1x5000x100.rank)
  bcast_S1x5000x100_S512x5000x100_0_1_2 : S1x5000x100.BroadcastsInDim S512x5000x100 (![0, 1, 2] : Fin 3 → Fin S512x5000x100.rank)
  shapeCasts_S512x5000x100_S512x500000 : S512x5000x100.ShapeCasts S512x500000
  transposes_S10x500000_S500000x10_1_0 : S10x500000.Transposes [1, 0] S500000x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S512x100_S100x100_S512x100_1_0_0_1_n_n_wf : DotDims.WF S512x100 S100x100 S512x100 [1] [0] [0] [1] [] []
  dot_S512x100_S5000x100x100_S512x5000x100_1_2_0_01_n_n_wf : DotDims.WF S512x100 S5000x100x100 S512x5000x100 [1] [2] [0] [0, 1] [] []
  dot_S512x500000_S500000x10_S512x10_1_0_0_1_n_n_wf : DotDims.WF S512x500000 S500000x10 S512x10 [1] [0] [0] [1] [] []

variable [Facts₀]

def dot_S512x100_S100x100_S512x100_1_0_0_1_n_n : DotDims S512x100 S100x100 S512x100 where
  lhsContracting := [1]
  rhsContracting := [0]
  lhsNonContracting := [0]
  rhsNonContracting := [1]
  lhsBatch := []
  rhsBatch := []
  wf := dot_S512x100_S100x100_S512x100_1_0_0_1_n_n_wf
def dot_S512x100_S5000x100x100_S512x5000x100_1_2_0_01_n_n : DotDims S512x100 S5000x100x100 S512x5000x100 where
  lhsContracting := [1]
  rhsContracting := [2]
  lhsNonContracting := [0]
  rhsNonContracting := [0, 1]
  lhsBatch := []
  rhsBatch := []
  wf := dot_S512x100_S5000x100x100_S512x5000x100_1_2_0_01_n_n_wf
def dot_S512x500000_S500000x10_S512x10_1_0_0_1_n_n : DotDims S512x500000 S500000x10 S512x10 where
  lhsContracting := [1]
  rhsContracting := [0]
  lhsNonContracting := [0]
  rhsNonContracting := [1]
  lhsBatch := []
  rhsBatch := []
  wf := dot_S512x500000_S500000x10_S512x10_1_0_0_1_n_n_wf

class Facts : Prop extends Facts₀ where

variable [Facts]
-- ==== Proof.Spec.lean ====
/-
  The mathematics of the claim, with no program in sight.

  A batch row `b` of `x` goes through an input layer, `hid b i = (∑ j, x[b,j]·W_in[i,j]) + b_in[i]`; five thousand
  parallel layers of a hundred outputs each are laid side by side along one axis of length 500000,
  `flat b q = (∑ i, hid b i · Wp[q / 100, q % 100, i]) + bp[q / 100, q % 100]`; and the result is
  `out b o = (∑ q, flat b q · W_out[o, q]) + b_out[o]`.

  The kernel walks that long axis in 62 tiles of 8192 columns, which is 507904 columns: 7904 more than there are.  It reads
  the three long operands through zero padding (`wpP`, `bpP`, `woP`: the operand below column 500000, zero from there
  on) and adds one tile's partial sum to an accumulator per step (`accP`).  A padded column contributes
  `((∑ i, hid b i · 0) + 0) · 0 = 0` on the extended reals, whatever `hid` is, so after the last tile the accumulator holds
  the full sum (`accP_full`).  Only commutativity and associativity of `+` and `x · 0 = 0` are used: no input needs to be
  finite.
-/
import Idealize.ShloMosaic.PureOps.Ideal
import Idealize.ShloMosaic.Lib.ValueIdx

noncomputable section

namespace Cert.Dense

open Idealize.ShloMosaic Idealize.ShloMosaic.ValueIdx

/-- Arrays of extended reals of rank one, two and three, over literal extents. -/
abbrev A1 (n : ℕ) : Type := (⟨1, ![n]⟩ : Shape).Idx → EReal
abbrev A2 (n0 n1 : ℕ) : Type := (⟨2, ![n0, n1]⟩ : Shape).Idx → EReal
abbrev A3 (n0 n1 n2 : ℕ) : Type := (⟨3, ![n0, n1, n2]⟩ : Shape).Idx → EReal

variable (X : A2 512 100) (Win : A2 100 100) (Bin : A1 100) (Wp : A3 5000 100 100) (Bp : A2 5000 100)
  (Wo : A2 10 500000) (Bo : A1 10)

/-- The input layer at batch row `b`, feature `i`. -/
def hid (b : Fin 512) (i : Fin 100) : EReal := (∑ j : Fin 100, X (ix2 b j) * Win (ix2 i j)) + Bin (ix1 i)

/-- Layer `q / 100`'s weight row `q % 100`, along the flattened axis; zero from column 500000 on. -/
def wpP (q : ℕ) (i : Fin 100) : EReal :=
  if h : q < 500000 then Wp (ix3 ⟨q / 100, by omega⟩ ⟨q % 100, Nat.mod_lt _ (by decide)⟩ i) else 0

/-- The layers' biases along the flattened axis; zero from column 500000 on. -/
def bpP (q : ℕ) : EReal :=
  if h : q < 500000 then Bp (ix2 ⟨q / 100, by omega⟩ ⟨q % 100, Nat.mod_lt _ (by decide)⟩) else 0

/-- The output projection's row `o`; zero from column 500000 on. -/
def woP (o : Fin 10) (q : ℕ) : EReal := if h : q < 500000 then Wo (ix2 o ⟨q, h⟩) else 0

/-- Column `q` of the concatenated layers' output, read through the padding. -/
def flatP (b : Fin 512) (q : ℕ) : EReal := (∑ i : Fin 100, hid X Win Bin b i * wpP Wp q i) + bpP Bp q

/-- Column `q`'s contribution to output `(b, o)`. -/
def termP (b : Fin 512) (o : Fin 10) (q : ℕ) : EReal := flatP X Win Bin Wp Bp b q * woP Wo o q

/-- The accumulator after the first `n` columns. -/
def accP (b : Fin 512) (o : Fin 10) (n : ℕ) : EReal := ∑ q ∈ Finset.range n, termP X Win Bin Wp Bp Wo b o q

/-- Column `q` of the concatenated layers' output. -/
def flat (b : Fin 512) (q : Fin 500000) : EReal :=
  (∑ i : Fin 100, hid X Win Bin b i * Wp (ix3 ⟨q.val / 100, by omega⟩ ⟨q.val % 100, Nat.mod_lt _ (by decide)⟩ i))
    + Bp (ix2 ⟨q.val / 100, by omega⟩ ⟨q.val % 100, Nat.mod_lt _ (by decide)⟩)

/-- The result at `(b, o)`. -/
def out (b : Fin 512) (o : Fin 10) : EReal := (∑ q : Fin 500000, flat X Win Bin Wp Bp b q * Wo (ix2 o q)) + Bo (ix1 o)

/-- The result array. -/
def outArr : A2 512 10 := fun i => out X Win Bin Wp Bp Wo Bo (i 0) (i 1)

theorem outArr_apply (b : Fin 512) (o : Fin 10) :
    outArr X Win Bin Wp Bp Wo Bo (ix2 b o) = out X Win Bin Wp Bp Wo Bo b o := rfl

theorem accP_zero (b : Fin 512) (o : Fin 10) : accP X Win Bin Wp Bp Wo b o 0 = 0 := by
  unfold accP; rw [Finset.range_zero, Finset.sum_empty]

/-- One tile more: the accumulator gains the tile's 8192 contributions. -/
theorem accP_step (b : Fin 512) (o : Fin 10) (k : ℕ) :
    accP X Win Bin Wp Bp Wo b o (8192 * (k + 1))
      = accP X Win Bin Wp Bp Wo b o (8192 * k) + ∑ j : Fin 8192, termP X Win Bin Wp Bp Wo b o (8192 * k + j.val) := by
  unfold accP
  rw [show 8192 * (k + 1) = 8192 * k + 8192 by ring, Finset.sum_range_add]
  exact congrArg _ (Finset.sum_range fun j => termP X Win Bin Wp Bp Wo b o (8192 * k + j))

/-- A padded column contributes nothing. -/
theorem termP_pad (b : Fin 512) (o : Fin 10) (q : ℕ) (h : ¬q < 500000) : termP X Win Bin Wp Bp Wo b o q = 0 := by
  unfold termP woP; rw [dif_neg h, mul_zero]

/-- A true column contributes the reference's term. -/
theorem termP_lt (b : Fin 512) (o : Fin 10) (q : ℕ) (h : q < 500000) :
    termP X Win Bin Wp Bp Wo b o q = flat X Win Bin Wp Bp b ⟨q, h⟩ * Wo (ix2 o ⟨q, h⟩) := by
  unfold termP flatP flat woP wpP bpP
  simp only [dif_pos h]

/-- After all 62 tiles the accumulator holds the sum over the 500000 true columns. -/
theorem accP_full (b : Fin 512) (o : Fin 10) :
    accP X Win Bin Wp Bp Wo b o 507904 = ∑ q : Fin 500000, flat X Win Bin Wp Bp b q * Wo (ix2 o q) := by
  unfold accP
  rw [show (507904 : ℕ) = 500000 + 7904 by norm_num, Finset.sum_range_add]
  rw [Finset.sum_eq_zero (s := Finset.range 7904) (fun j _ => termP_pad X Win Bin Wp Bp Wo b o (500000 + j) (by omega)),
    add_zero, Finset.sum_range]
  exact Finset.sum_congr rfl fun q _ => termP_lt X Win Bin Wp Bp Wo b o q.val q.isLt

end Cert.Dense

end
-- ==== Proof.Pieces.lean ====
/-
  What each of the kernel body's three control cases leaves behind, as values.

  The body keeps two scratch buffers between grid points: the hidden activations of the current batch tile (256 × 100) and
  the output accumulator (256 × 10).  At a batch tile's first step (case A) it computes the hidden activations from the
  `x` tile, stores them, zeroes the accumulator, and then adds the first tile of the long axis into it.  At the steps in
  between (case B) it only adds the current tile into the accumulator.  At the last step (case C) it adds the last tile and
  writes the accumulator plus the output bias to the output block.  Each of these contents is one payload of the body
  applied to the blocks the step reads.
-/
import proofs.«121052_j65850438582500_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem hidden_A (c : Dev nD) (i : grid0.Coords) (arg2 : Memref sig .tc .vmem S256x100 .f32) (harg2 : arg2.IsWhole) (arg3 : Memref sig .tc .vmem S100x100 .f32) (harg3 : arg3.IsWhole) (arg4 : Memref sig .tc .vmem S1x100 .f32) (harg4 : arg4.IsWhole) (arg5 : Memref sig .tc .vmem S8192x100 .bf16) (harg5 : arg5.IsWhole) (arg6 : Memref sig .tc .vmem S1x8192 .f32) (harg6 : arg6.IsWhole) (arg7 : Memref sig .tc .vmem S10x8192 .bf16) (harg7 : arg7.IsWhole) (arg8 : Memref sig .tc .vmem S1x10 .f32) (harg8 : arg8.IsWhole) (arg9 : Memref sig .tc .vmem S256x10 .f32) (harg9 : arg9.IsWhole) (arg10 : Memref sig .tc .vmem S256x100 .bf16) (harg10 : arg10.IsWhole) (arg11 : Memref sig .tc .vmem S256x10 .f32) (harg11 : arg11.IsWhole) (hc0 : cond0_0 i) (hc1 : ¬cond0_1 i)
    (x0 : Vec F S256x100 .f32) (x1 : Vec F S100x100 .f32) (x2 : Vec F S1x100 .f32) (x3 : Vec F S8192x100 .bf16) (x4 : Vec F S1x8192 .f32) (x5 : Vec F S10x8192 .bf16) (x6 : Vec F S1x10 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay1 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x100) hz, View.ld_unit_zero (S := S100x100) hz, View.ld_unit_zero (S := S1x100) hz, View.ld_unit_zero (S := S8192x100) hz, View.ld_unit_zero (S := S1x8192) hz, View.ld_unit_zero (S := S10x8192) hz, View.ld_unit_zero (S := S1x10) hz, View.ld_unit_zero (S := S256x10) hz]

theorem acc_A (c : Dev nD) (i : grid0.Coords) (arg2 : Memref sig .tc .vmem S256x100 .f32) (harg2 : arg2.IsWhole) (arg3 : Memref sig .tc .vmem S100x100 .f32) (harg3 : arg3.IsWhole) (arg4 : Memref sig .tc .vmem S1x100 .f32) (harg4 : arg4.IsWhole) (arg5 : Memref sig .tc .vmem S8192x100 .bf16) (harg5 : arg5.IsWhole) (arg6 : Memref sig .tc .vmem S1x8192 .f32) (harg6 : arg6.IsWhole) (arg7 : Memref sig .tc .vmem S10x8192 .bf16) (harg7 : arg7.IsWhole) (arg8 : Memref sig .tc .vmem S1x10 .f32) (harg8 : arg8.IsWhole) (arg9 : Memref sig .tc .vmem S256x10 .f32) (harg9 : arg9.IsWhole) (arg10 : Memref sig .tc .vmem S256x100 .bf16) (harg10 : arg10.IsWhole) (arg11 : Memref sig .tc .vmem S256x10 .f32) (harg11 : arg11.IsWhole) (hc0 : cond0_0 i) (hc1 : ¬cond0_1 i)
    (x0 : Vec F S256x100 .f32) (x1 : Vec F S100x100 .f32) (x2 : Vec F S1x100 .f32) (x3 : Vec F S8192x100 .bf16) (x4 : Vec F S1x8192 .f32) (x5 : Vec F S10x8192 .bf16) (x6 : Vec F S1x10 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay3 (k0_pay1 x0 x1 x2) x3 x4 (k0_pay2 (F := F)) x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x10) hz, View.readCov_unit_zero (S := S256x10) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x100) hz, View.ld_unit_zero (S := S100x100) hz, View.ld_unit_zero (S := S1x100) hz, View.ld_unit_zero (S := S8192x100) hz, View.ld_unit_zero (S := S1x8192) hz, View.ld_unit_zero (S := S10x8192) hz, View.ld_unit_zero (S := S1x10) hz, View.ld_unit_zero (S := S256x10) hz, View.readCov_unit_zero (S := S256x100) _ hz]

theorem acc_B (c : Dev nD) (i : grid0.Coords) (arg2 : Memref sig .tc .vmem S256x100 .f32) (harg2 : arg2.IsWhole) (arg3 : Memref sig .tc .vmem S100x100 .f32) (harg3 : arg3.IsWhole) (arg4 : Memref sig .tc .vmem S1x100 .f32) (harg4 : arg4.IsWhole) (arg5 : Memref sig .tc .vmem S8192x100 .bf16) (harg5 : arg5.IsWhole) (arg6 : Memref sig .tc .vmem S1x8192 .f32) (harg6 : arg6.IsWhole) (arg7 : Memref sig .tc .vmem S10x8192 .bf16) (harg7 : arg7.IsWhole) (arg8 : Memref sig .tc .vmem S1x10 .f32) (harg8 : arg8.IsWhole) (arg9 : Memref sig .tc .vmem S256x10 .f32) (harg9 : arg9.IsWhole) (arg10 : Memref sig .tc .vmem S256x100 .bf16) (harg10 : arg10.IsWhole) (arg11 : Memref sig .tc .vmem S256x10 .f32) (harg11 : arg11.IsWhole) (hc0 : ¬cond0_0 i) (hc1 : ¬cond0_1 i)
    (x0 : Vec F S256x100 .f32) (x1 : Vec F S100x100 .f32) (x2 : Vec F S1x100 .f32) (x3 : Vec F S8192x100 .bf16) (x4 : Vec F S1x8192 .f32) (x5 : Vec F S10x8192 .bf16) (x6 : Vec F S1x10 .f32) (xs0 : Vec F S256x100 .bf16) (xs1 : Vec F S256x10 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 xs0 x3 x4 xs1 x5 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x100) hz, View.ld_unit_zero (S := S100x100) hz, View.ld_unit_zero (S := S1x100) hz, View.ld_unit_zero (S := S8192x100) hz, View.ld_unit_zero (S := S1x8192) hz, View.ld_unit_zero (S := S10x8192) hz, View.ld_unit_zero (S := S1x10) hz, View.ld_unit_zero (S := S256x10) hz]

theorem acc_C (c : Dev nD) (i : grid0.Coords) (arg2 : Memref sig .tc .vmem S256x100 .f32) (harg2 : arg2.IsWhole) (arg3 : Memref sig .tc .vmem S100x100 .f32) (harg3 : arg3.IsWhole) (arg4 : Memref sig .tc .vmem S1x100 .f32) (harg4 : arg4.IsWhole) (arg5 : Memref sig .tc .vmem S8192x100 .bf16) (harg5 : arg5.IsWhole) (arg6 : Memref sig .tc .vmem S1x8192 .f32) (harg6 : arg6.IsWhole) (arg7 : Memref sig .tc .vmem S10x8192 .bf16) (harg7 : arg7.IsWhole) (arg8 : Memref sig .tc .vmem S1x10 .f32) (harg8 : arg8.IsWhole) (arg9 : Memref sig .tc .vmem S256x10 .f32) (harg9 : arg9.IsWhole) (arg10 : Memref sig .tc .vmem S256x100 .bf16) (harg10 : arg10.IsWhole) (arg11 : Memref sig .tc .vmem S256x10 .f32) (harg11 : arg11.IsWhole) (hc0 : ¬cond0_0 i) (hc1 : cond0_1 i)
    (x0 : Vec F S256x100 .f32) (x1 : Vec F S100x100 .f32) (x2 : Vec F S1x100 .f32) (x3 : Vec F S8192x100 .bf16) (x4 : Vec F S1x8192 .f32) (x5 : Vec F S10x8192 .bf16) (x6 : Vec F S1x10 .f32) (xs0 : Vec F S256x100 .bf16) (xs1 : Vec F S256x10 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 xs0 x3 x4 xs1 x5 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x100) hz, View.ld_unit_zero (S := S100x100) hz, View.ld_unit_zero (S := S1x100) hz, View.ld_unit_zero (S := S8192x100) hz, View.ld_unit_zero (S := S1x8192) hz, View.ld_unit_zero (S := S10x8192) hz, View.ld_unit_zero (S := S1x10) hz, View.ld_unit_zero (S := S256x10) hz]

theorem out_C (c : Dev nD) (i : grid0.Coords) (arg2 : Memref sig .tc .vmem S256x100 .f32) (harg2 : arg2.IsWhole) (arg3 : Memref sig .tc .vmem S100x100 .f32) (harg3 : arg3.IsWhole) (arg4 : Memref sig .tc .vmem S1x100 .f32) (harg4 : arg4.IsWhole) (arg5 : Memref sig .tc .vmem S8192x100 .bf16) (harg5 : arg5.IsWhole) (arg6 : Memref sig .tc .vmem S1x8192 .f32) (harg6 : arg6.IsWhole) (arg7 : Memref sig .tc .vmem S10x8192 .bf16) (harg7 : arg7.IsWhole) (arg8 : Memref sig .tc .vmem S1x10 .f32) (harg8 : arg8.IsWhole) (arg9 : Memref sig .tc .vmem S256x10 .f32) (harg9 : arg9.IsWhole) (arg10 : Memref sig .tc .vmem S256x100 .bf16) (harg10 : arg10.IsWhole) (arg11 : Memref sig .tc .vmem S256x10 .f32) (harg11 : arg11.IsWhole) (hc0 : ¬cond0_0 i) (hc1 : cond0_1 i)
    (x0 : Vec F S256x100 .f32) (x1 : Vec F S100x100 .f32) (x2 : Vec F S1x100 .f32) (x3 : Vec F S8192x100 .bf16) (x4 : Vec F S1x8192 .f32) (x5 : Vec F S10x8192 .bf16) (x6 : Vec F S1x10 .f32) (xs0 : Vec F S256x100 .bf16) (xs1 : Vec F S256x10 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 (k0_pay3 xs0 x3 x4 xs1 x5) x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x100) hz, View.ld_unit_zero (S := S100x100) hz, View.ld_unit_zero (S := S1x100) hz, View.ld_unit_zero (S := S8192x100) hz, View.ld_unit_zero (S := S1x8192) hz, View.ld_unit_zero (S := S10x8192) hz, View.ld_unit_zero (S := S1x10) hz, View.ld_unit_zero (S := S256x10) hz, View.readCov_unit_zero (S := S256x10) _ hz]

end Cert.KernelIdeal.Pieces

end
-- ==== Proof.Cases.lean ====
/-
  The kernel's carried contents point by point, as payloads of the blocks each point reads.

  Grid point `t` is batch tile `t / 62`, column tile `t % 62`.  At a batch tile's first point the hidden activations
  are computed afresh and the accumulator restarts from zero plus the first tile's contribution; at every later point the
  hidden activations are what the point before left and the accumulator gains one tile; at the last point the output block
  is the accumulator plus the output bias.
-/
import proofs.«121052_j65850438582500_1_alg».proof.Proof.Gen.KernelIdeal.Frame
import proofs.«121052_j65850438582500_1_alg».proof.Proof.Pieces

noncomputable section

namespace Cert.KernelIdeal.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The hidden activations a point leaves, and the accumulator, as literal-shape vectors. -/
abbrev hidAt (c : Dev nD) (n : ℕ) (h : n < cfg0.N) : Vec F S256x100 .bf16 := (outsAt0 m c n h).2.1
abbrev accAt (c : Dev nD) (n : ℕ) (h : n < cfg0.N) : Vec F S256x10 .f32 := (outsAt0 m c n h).2.2
abbrev outAt (c : Dev nD) (n : ℕ) (h : n < cfg0.N) : Vec F S256x10 .f32 := (outsAt0 m c n h).1

/-- The blocks a point reads, as literal-shape vectors. -/
abbrev bx (c : Dev nD) (t : Fin cfg0.N) : Vec F S256x100 .f32 := iblk m c 0 t
abbrev bwin (c : Dev nD) (t : Fin cfg0.N) : Vec F S100x100 .f32 := iblk m c 1 t
abbrev bbin (c : Dev nD) (t : Fin cfg0.N) : Vec F S1x100 .f32 := iblk m c 2 t
abbrev bwp (c : Dev nD) (t : Fin cfg0.N) : Vec F S8192x100 .bf16 := iblk m c 3 t
abbrev bbp (c : Dev nD) (t : Fin cfg0.N) : Vec F S1x8192 .f32 := iblk m c 4 t
abbrev bwo (c : Dev nD) (t : Fin cfg0.N) : Vec F S10x8192 .bf16 := iblk m c 5 t
abbrev bbo (c : Dev nD) (t : Fin cfg0.N) : Vec F S1x10 .f32 := iblk m c 6 t

/-- A batch tile's first point. -/
theorem first (c : Dev nD) (t : Fin cfg0.N) (h0 : t.val % 62 = 0) (h1 : ¬t.val % 62 = 61) :
    hidAt m c t.val t.isLt = k0_pay1 (bx m c t) (bwin m c t) (bbin m c t)
    ∧ accAt m c t.val t.isLt
        = k0_pay3 (k0_pay1 (bx m c t) (bwin m c t) (bbin m c t)) (bwp m c t) (bbp m c t) (k0_pay2 (F := F)) (bwo m c t) := by
  show (outsAt0 m c t.val t.isLt).2.1 = _ ∧ (outsAt0 m c t.val t.isLt).2.2 = _
  rw [outsAt0_A m c t h0 h1]
  dsimp only
  exact ⟨Pieces.hidden_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), Pieces.acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)⟩

/-- A point in the middle of a batch tile. -/
theorem middle (c : Dev nD) (t : Fin cfg0.N) (h0 : ¬t.val % 62 = 0) (h1 : ¬t.val % 62 = 61) :
    hidAt m c t.val t.isLt = hidAt m c (t.val - 1) (Nat.lt_of_le_of_lt (Nat.sub_le _ _) t.isLt)
    ∧ accAt m c t.val t.isLt
        = k0_pay3 (hidAt m c (t.val - 1) (Nat.lt_of_le_of_lt (Nat.sub_le _ _) t.isLt)) (bwp m c t) (bbp m c t) (accAt m c (t.val - 1) (Nat.lt_of_le_of_lt (Nat.sub_le _ _) t.isLt)) (bwo m c t) := by
  show (outsAt0 m c t.val t.isLt).2.1 = _ ∧ (outsAt0 m c t.val t.isLt).2.2 = _
  rw [outsAt0_B m c t h0 h1]
  dsimp only
  exact ⟨rfl, Pieces.acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

/-- A batch tile's last point. -/
theorem last (c : Dev nD) (t : Fin cfg0.N) (h0 : ¬t.val % 62 = 0) (h1 : t.val % 62 = 61) :
    hidAt m c t.val t.isLt = hidAt m c (t.val - 1) (Nat.lt_of_le_of_lt (Nat.sub_le _ _) t.isLt)
    ∧ accAt m c t.val t.isLt
        = k0_pay3 (hidAt m c (t.val - 1) (Nat.lt_of_le_of_lt (Nat.sub_le _ _) t.isLt)) (bwp m c t) (bbp m c t) (accAt m c (t.val - 1) (Nat.lt_of_le_of_lt (Nat.sub_le _ _) t.isLt)) (bwo m c t)
    ∧ outAt m c t.val t.isLt
        = k0_pay4 (k0_pay3 (hidAt m c (t.val - 1) (Nat.lt_of_le_of_lt (Nat.sub_le _ _) t.isLt)) (bwp m c t) (bbp m c t) (accAt m c (t.val - 1) (Nat.lt_of_le_of_lt (Nat.sub_le _ _) t.isLt)) (bwo m c t)) (bbo m c t) := by
  show (outsAt0 m c t.val t.isLt).2.1 = _ ∧ (outsAt0 m c t.val t.isLt).2.2 = _ ∧ (outsAt0 m c t.val t.isLt).1 = _
  rw [outsAt0_C m c t h0 h1]
  dsimp only
  exact ⟨rfl, Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

end Cert.KernelIdeal.Cases

end
-- ==== Proof.Payloads.lean ====
/-
  The body's four payloads read at an index, over the extended reals.

  `k0_pay1` is the input layer on a tile of 256 batch rows: entry `(r, i)` is `(∑ j, x[r,j]·W_in[i,j]) + b_in[i]`
  (the weight tile is transposed before the product, and the product starts from zero).
  `k0_pay2` is the zero block.  `k0_pay3` is one accumulation step: entry `(r, o)` is the accumulator's entry plus the sum
  over the tile's 8192 columns `q` of `((∑ i, h[r,i]·Wp[q,i]) + bp[q]) · W_out[o,q]`.  `k0_pay4` adds the output bias.
  Changes of float format are the identity here.

  Each of the three products contracts the left operand's second axis with the right operand's first, into the zero
  block: read at `(r, c)` it is `∑ k, a[r,k]·b[k,c]`.  For each product the operand indices at an output index and a
  contraction index are first read off axis by axis, then the sum over the one-axis contraction index is re-indexed by
  its coordinate.
-/
import proofs.«121052_j65850438582500_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.TcCoe Idealize.ShloMosaic.ValueIdx

/-! ### The input layer's product: [256,100] × [100,100] -/

theorem lhs_mm1_0 (i : S256x100.Idx) (q : dot_S256x100_S100x100_S256x100_1_0_0_1_n_n.contr.Idx) :
    (dot_S256x100_S100x100_S256x100_1_0_0_1_n_n.lhsIdx i q 0).val = (i 0).val := by
  unfold DotDims.lhsIdx
  rw [dif_neg (show ¬(0 : Fin S256x100.rank) ∈ dot_S256x100_S100x100_S256x100_1_0_0_1_n_n.lhsBatch by decide), dif_pos (show (0 : Fin S256x100.rank) ∈ dot_S256x100_S100x100_S256x100_1_0_0_1_n_n.lhsNonContracting by decide)]
  rfl
theorem lhs_mm1_1 (i : S256x100.Idx) (q : dot_S256x100_S100x100_S256x100_1_0_0_1_n_n.contr.Idx) :
    (dot_S256x100_S100x100_S256x100_1_0_0_1_n_n.lhsIdx i q 1).val = (q ⟨0, by decide⟩).val :=
  dot_S256x100_S100x100_S256x100_1_0_0_1_n_n.lhsIdx_val_of_single rfl i q
theorem rhs_mm1_0 (i : S256x100.Idx) (q : dot_S256x100_S100x100_S256x100_1_0_0_1_n_n.contr.Idx) :
    (dot_S256x100_S100x100_S256x100_1_0_0_1_n_n.rhsIdx i q 0).val = (q ⟨0, by decide⟩).val :=
  dot_S256x100_S100x100_S256x100_1_0_0_1_n_n.rhsIdx_val_of_single rfl i q
theorem rhs_mm1_1 (i : S256x100.Idx) (q : dot_S256x100_S100x100_S256x100_1_0_0_1_n_n.contr.Idx) :
    (dot_S256x100_S100x100_S256x100_1_0_0_1_n_n.rhsIdx i q 1).val = (i 1).val := by
  unfold DotDims.rhsIdx
  rw [dif_neg (show ¬(1 : Fin S100x100.rank) ∈ dot_S256x100_S100x100_S256x100_1_0_0_1_n_n.rhsBatch by decide), dif_pos (show (1 : Fin S100x100.rank) ∈ dot_S256x100_S100x100_S256x100_1_0_0_1_n_n.rhsNonContracting by decide)]
  rfl

/-- The product into the zero block, read at `(r, c)`: the sum over the contracted axis. -/
theorem mm1_apply (a : FVec Ideal S256x100 .bf16) (b : FVec Ideal S100x100 .bf16) (r : Fin 256) (c : Fin 100) :
    matmul (F := Ideal) dot_S256x100_S100x100_S256x100_1_0_0_1_n_n none a b (constant (F := Ideal) S256x100 .f32 0x00000000#32) (ix2 r c)
      = ∑ k : Fin 100, a (ix2 r k) * b (ix2 k c) := by
  show FloatOps.matmul dot_S256x100_S100x100_S256x100_1_0_0_1_n_n none a b (constant (F := Ideal) S256x100 .f32 0x00000000#32) (ix2 r c) = _
  rw [Ideal.matmul_constant_zero_apply, ← Equiv.sum_comp (ValueIdx.contrEquiv1 dot_S256x100_S100x100_S256x100_1_0_0_1_n_n 100 rfl rfl).symm]
  refine Finset.sum_congr rfl fun k _ => ?_
  have hk := ValueIdx.contrEquiv1_symm_val dot_S256x100_S100x100_S256x100_1_0_0_1_n_n 100 rfl rfl k
  have el : dot_S256x100_S100x100_S256x100_1_0_0_1_n_n.lhsIdx (ix2 r c) ((ValueIdx.contrEquiv1 dot_S256x100_S100x100_S256x100_1_0_0_1_n_n 100 rfl rfl).symm k) = ix2 r k := funext fun ax => Fin.ext (by
    match ax with
    | ⟨0, _⟩ => exact lhs_mm1_0 _ _
    | ⟨1, _⟩ => exact (lhs_mm1_1 _ _).trans hk)
  have er : dot_S256x100_S100x100_S256x100_1_0_0_1_n_n.rhsIdx (ix2 r c) ((ValueIdx.contrEquiv1 dot_S256x100_S100x100_S256x100_1_0_0_1_n_n 100 rfl rfl).symm k) = ix2 k c := funext fun ax => Fin.ext (by
    match ax with
    | ⟨0, _⟩ => exact (rhs_mm1_0 _ _).trans hk
    | ⟨1, _⟩ => exact rhs_mm1_1 _ _)
  rw [el, er]

/-! ### The hidden tile's product: [256,100] × [100,8192] -/

theorem lhs_mm2_0 (i : S256x8192.Idx) (q : dot_S256x100_S100x8192_S256x8192_1_0_0_1_n_n.contr.Idx) :
    (dot_S256x100_S100x8192_S256x8192_1_0_0_1_n_n.lhsIdx i q 0).val = (i 0).val := by
  unfold DotDims.lhsIdx
  rw [dif_neg (show ¬(0 : Fin S256x100.rank) ∈ dot_S256x100_S100x8192_S256x8192_1_0_0_1_n_n.lhsBatch by decide), dif_pos (show (0 : Fin S256x100.rank) ∈ dot_S256x100_S100x8192_S256x8192_1_0_0_1_n_n.lhsNonContracting by decide)]
  rfl
theorem lhs_mm2_1 (i : S256x8192.Idx) (q : dot_S256x100_S100x8192_S256x8192_1_0_0_1_n_n.contr.Idx) :
    (dot_S256x100_S100x8192_S256x8192_1_0_0_1_n_n.lhsIdx i q 1).val = (q ⟨0, by decide⟩).val :=
  dot_S256x100_S100x8192_S256x8192_1_0_0_1_n_n.lhsIdx_val_of_single rfl i q
theorem rhs_mm2_0 (i : S256x8192.Idx) (q : dot_S256x100_S100x8192_S256x8192_1_0_0_1_n_n.contr.Idx) :
    (dot_S256x100_S100x8192_S256x8192_1_0_0_1_n_n.rhsIdx i q 0).val = (q ⟨0, by decide⟩).val :=
  dot_S256x100_S100x8192_S256x8192_1_0_0_1_n_n.rhsIdx_val_of_single rfl i q
theorem rhs_mm2_1 (i : S256x8192.Idx) (q : dot_S256x100_S100x8192_S256x8192_1_0_0_1_n_n.contr.Idx) :
    (dot_S256x100_S100x8192_S256x8192_1_0_0_1_n_n.rhsIdx i q 1).val = (i 1).val := by
  unfold DotDims.rhsIdx
  rw [dif_neg (show ¬(1 : Fin S100x8192.rank) ∈ dot_S256x100_S100x8192_S256x8192_1_0_0_1_n_n.rhsBatch by decide), dif_pos (show (1 : Fin S100x8192.rank) ∈ dot_S256x100_S100x8192_S256x8192_1_0_0_1_n_n.rhsNonContracting by decide)]
  rfl

/-- The product into the zero block, read at `(r, c)`: the sum over the contracted axis. -/
theorem mm2_apply (a : FVec Ideal S256x100 .bf16) (b : FVec Ideal S100x8192 .bf16) (r : Fin 256) (c : Fin 8192) :
    matmul (F := Ideal) dot_S256x100_S100x8192_S256x8192_1_0_0_1_n_n none a b (constant (F := Ideal) S256x8192 .f32 0x00000000#32) (ix2 r c)
      = ∑ k : Fin 100, a (ix2 r k) * b (ix2 k c) := by
  show FloatOps.matmul dot_S256x100_S100x8192_S256x8192_1_0_0_1_n_n none a b (constant (F := Ideal) S256x8192 .f32 0x00000000#32) (ix2 r c) = _
  rw [Ideal.matmul_constant_zero_apply, ← Equiv.sum_comp (ValueIdx.contrEquiv1 dot_S256x100_S100x8192_S256x8192_1_0_0_1_n_n 100 rfl rfl).symm]
  refine Finset.sum_congr rfl fun k _ => ?_
  have hk := ValueIdx.contrEquiv1_symm_val dot_S256x100_S100x8192_S256x8192_1_0_0_1_n_n 100 rfl rfl k
  have el : dot_S256x100_S100x8192_S256x8192_1_0_0_1_n_n.lhsIdx (ix2 r c) ((ValueIdx.contrEquiv1 dot_S256x100_S100x8192_S256x8192_1_0_0_1_n_n 100 rfl rfl).symm k) = ix2 r k := funext fun ax => Fin.ext (by
    match ax with
    | ⟨0, _⟩ => exact lhs_mm2_0 _ _
    | ⟨1, _⟩ => exact (lhs_mm2_1 _ _).trans hk)
  have er : dot_S256x100_S100x8192_S256x8192_1_0_0_1_n_n.rhsIdx (ix2 r c) ((ValueIdx.contrEquiv1 dot_S256x100_S100x8192_S256x8192_1_0_0_1_n_n 100 rfl rfl).symm k) = ix2 k c := funext fun ax => Fin.ext (by
    match ax with
    | ⟨0, _⟩ => exact (rhs_mm2_0 _ _).trans hk
    | ⟨1, _⟩ => exact rhs_mm2_1 _ _)
  rw [el, er]

/-! ### The output's product over the tile's columns: [256,8192] × [8192,10] -/

theorem lhs_mm3_0 (i : S256x10.Idx) (q : dot_S256x8192_S8192x10_S256x10_1_0_0_1_n_n.contr.Idx) :
    (dot_S256x8192_S8192x10_S256x10_1_0_0_1_n_n.lhsIdx i q 0).val = (i 0).val := by
  unfold DotDims.lhsIdx
  rw [dif_neg (show ¬(0 : Fin S256x8192.rank) ∈ dot_S256x8192_S8192x10_S256x10_1_0_0_1_n_n.lhsBatch by decide), dif_pos (show (0 : Fin S256x8192.rank) ∈ dot_S256x8192_S8192x10_S256x10_1_0_0_1_n_n.lhsNonContracting by decide)]
  rfl
theorem lhs_mm3_1 (i : S256x10.Idx) (q : dot_S256x8192_S8192x10_S256x10_1_0_0_1_n_n.contr.Idx) :
    (dot_S256x8192_S8192x10_S256x10_1_0_0_1_n_n.lhsIdx i q 1).val = (q ⟨0, by decide⟩).val :=
  dot_S256x8192_S8192x10_S256x10_1_0_0_1_n_n.lhsIdx_val_of_single rfl i q
theorem rhs_mm3_0 (i : S256x10.Idx) (q : dot_S256x8192_S8192x10_S256x10_1_0_0_1_n_n.contr.Idx) :
    (dot_S256x8192_S8192x10_S256x10_1_0_0_1_n_n.rhsIdx i q 0).val = (q ⟨0, by decide⟩).val :=
  dot_S256x8192_S8192x10_S256x10_1_0_0_1_n_n.rhsIdx_val_of_single rfl i q
theorem rhs_mm3_1 (i : S256x10.Idx) (q : dot_S256x8192_S8192x10_S256x10_1_0_0_1_n_n.contr.Idx) :
    (dot_S256x8192_S8192x10_S256x10_1_0_0_1_n_n.rhsIdx i q 1).val = (i 1).val := by
  unfold DotDims.rhsIdx
  rw [dif_neg (show ¬(1 : Fin S8192x10.rank) ∈ dot_S256x8192_S8192x10_S256x10_1_0_0_1_n_n.rhsBatch by decide), dif_pos (show (1 : Fin S8192x10.rank) ∈ dot_S256x8192_S8192x10_S256x10_1_0_0_1_n_n.rhsNonContracting by decide)]
  rfl

/-- The product into the zero block, read at `(r, c)`: the sum over the contracted axis. -/
theorem mm3_apply (a : FVec Ideal S256x8192 .bf16) (b : FVec Ideal S8192x10 .bf16) (r : Fin 256) (c : Fin 10) :
    matmul (F := Ideal) dot_S256x8192_S8192x10_S256x10_1_0_0_1_n_n none a b (constant (F := Ideal) S256x10 .f32 0x00000000#32) (ix2 r c)
      = ∑ k : Fin 8192, a (ix2 r k) * b (ix2 k c) := by
  show FloatOps.matmul dot_S256x8192_S8192x10_S256x10_1_0_0_1_n_n none a b (constant (F := Ideal) S256x10 .f32 0x00000000#32) (ix2 r c) = _
  rw [Ideal.matmul_constant_zero_apply, ← Equiv.sum_comp (ValueIdx.contrEquiv1 dot_S256x8192_S8192x10_S256x10_1_0_0_1_n_n 8192 rfl rfl).symm]
  refine Finset.sum_congr rfl fun k _ => ?_
  have hk := ValueIdx.contrEquiv1_symm_val dot_S256x8192_S8192x10_S256x10_1_0_0_1_n_n 8192 rfl rfl k
  have el : dot_S256x8192_S8192x10_S256x10_1_0_0_1_n_n.lhsIdx (ix2 r c) ((ValueIdx.contrEquiv1 dot_S256x8192_S8192x10_S256x10_1_0_0_1_n_n 8192 rfl rfl).symm k) = ix2 r k := funext fun ax => Fin.ext (by
    match ax with
    | ⟨0, _⟩ => exact lhs_mm3_0 _ _
    | ⟨1, _⟩ => exact (lhs_mm3_1 _ _).trans hk)
  have er : dot_S256x8192_S8192x10_S256x10_1_0_0_1_n_n.rhsIdx (ix2 r c) ((ValueIdx.contrEquiv1 dot_S256x8192_S8192x10_S256x10_1_0_0_1_n_n 8192 rfl rfl).symm k) = ix2 k c := funext fun ax => Fin.ext (by
    match ax with
    | ⟨0, _⟩ => exact (rhs_mm3_0 _ _).trans hk
    | ⟨1, _⟩ => exact rhs_mm3_1 _ _)
  rw [el, er]

/-! ### The four payloads -/

/-- The input layer on a tile. -/
theorem pay1_apply (x : Vec Ideal S256x100 .f32) (w : Vec Ideal S100x100 .f32) (bi : Vec Ideal S1x100 .f32)
    (r : Fin 256) (i : Fin 100) :
    k0_pay1 (F := Ideal) x w bi (ix2 r i) = (∑ j : Fin 100, x (ix2 r j) * w (ix2 i j)) + bi (ix2 (0 : Fin 1) i) := by
  unfold k0_pay1
  simp only [shapeCast_self]
  rw [truncf_apply, addf_apply]
  -- the product's entry, plus the bias row's entry
  refine congrArg₂ (· + ·) ?_ (broadcastTo_1b_ab_apply bi broadcasts_S1x100_S256x100 r i)
  refine (mm1_apply _ _ r i).trans (Finset.sum_congr rfl fun j _ => ?_)
  -- the transposed weight at (j, i) is the weight at (i, j)
  rw [truncf_apply, transpose_ix2_apply, truncf_apply]

/-- The zero block. -/
theorem pay2_apply (r : Fin 256) (o : Fin 10) : k0_pay2 (F := Ideal) (ix2 r o) = 0 := by
  unfold k0_pay2
  simp only [shapeCast_self]
  rw [broadcast_apply]
  exact Ideal.ofBits_zero_f32

/-- One accumulation step. -/
theorem pay3_apply (hs : Vec Ideal S256x100 .bf16) (wp : Vec Ideal S8192x100 .bf16) (bp : Vec Ideal S1x8192 .f32)
    (acc : Vec Ideal S256x10 .f32) (wo : Vec Ideal S10x8192 .bf16) (r : Fin 256) (o : Fin 10) :
    k0_pay3 (F := Ideal) hs wp bp acc wo (ix2 r o)
      = acc (ix2 r o) + ∑ q : Fin 8192, ((∑ i : Fin 100, hs (ix2 r i) * wp (ix2 q i)) + bp (ix2 (0 : Fin 1) q)) * wo (ix2 o q) := by
  unfold k0_pay3
  simp only [shapeCast_self]
  rw [addf_apply]
  refine congrArg (acc (ix2 r o) + ·) ?_
  -- the outer product over the tile's columns q
  refine (mm3_apply _ _ r o).trans (Finset.sum_congr rfl fun q _ => ?_)
  rw [truncf_apply, addf_apply, transpose_ix2_apply]
  refine congrArg (· * wo (ix2 o q)) ?_
  -- the hidden entry (r, q): the inner product over i, plus the bias row's entry
  refine congrArg₂ (· + ·) ?_ (broadcastTo_1b_ab_apply bp broadcasts_S1x8192_S256x8192 r q)
  refine (mm2_apply _ _ r q).trans (Finset.sum_congr rfl fun i _ => ?_)
  rw [transpose_ix2_apply]

/-- The output bias added. -/
theorem pay4_apply (acc : Vec Ideal S256x10 .f32) (bo : Vec Ideal S1x10 .f32) (r : Fin 256) (o : Fin 10) :
    k0_pay4 (F := Ideal) acc bo (ix2 r o) = acc (ix2 r o) + bo (ix2 (0 : Fin 1) o) := by
  unfold k0_pay4
  simp only [shapeCast_self]
  rw [addf_apply]
  exact congrArg (acc (ix2 r o) + ·) (broadcastTo_1b_ab_apply bo broadcasts_S1x10_S256x10 r o)

end Cert.KernelIdeal.Payloads

end
-- ==== Proof.Blocks.lean ====
/-
  What the kernel's windows read, in terms of the program's arguments.

  Before the launch the host flattens the parallel layers' weights to 500000 × 100 and their biases to 1 × 500000, pads
  those and the output projection with zeros to 507904 columns, and gives the two bias vectors a leading unit axis.  A
  window's block at grid point `t` (batch tile `t / 62`, column tile `t % 62`) is the rectangle of its array at block
  index × block size.  So the `x` tile is rows `256·(t / 62) + r`, and the three long operands are read at column
  `8192·(t % 62) + q` through the zero padding (`wpP`, `bpP`, `woP`).
-/
import proofs.«121052_j65850438582500_1_alg».proof.Proof.Gen.KernelIdeal.Frame
import proofs.«121052_j65850438582500_1_alg».proof.Proof.Spec
import Idealize.ShloMosaic.Lib.Pipeline.Value
import Idealize.ShloMosaic.Lib.ValueLayout
import Idealize.ShloMosaic.Lib.KernelVsHost
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Dense

variable (m : (ℓ : Loc nD τ sig) → Buf (Elt Ideal) ℓ)

/-- The seven arguments on core `c`, as arrays of extended reals. -/
abbrev aX (c : Dev nD) : A2 512 100 := m ((c : Thread nD τ).loc main_arg0)
abbrev aWin (c : Dev nD) : A2 100 100 := m ((c : Thread nD τ).loc main_arg1)
abbrev aBin (c : Dev nD) : A1 100 := m ((c : Thread nD τ).loc main_arg2)
abbrev aWp (c : Dev nD) : A3 5000 100 100 := m ((c : Thread nD τ).loc main_arg3)
abbrev aBp (c : Dev nD) : A2 5000 100 := m ((c : Thread nD τ).loc main_arg4)
abbrev aWo (c : Dev nD) : A2 10 500000 := m ((c : Thread nD τ).loc main_arg5)
abbrev aBo (c : Dev nD) : A1 10 := m ((c : Thread nD τ).loc main_arg6)

/-- The batch row a tile row stands for at point `t`. -/
def rowOf (t : Fin cfg0.N) (r : Fin 256) : Fin 512 :=
  ⟨256 * (t.val / 62) + r.val, by have h := lt_of_lt_of_eq t.isLt (show cfg0.N = 124 from N_0); have := r.isLt; omega⟩

/-! ## The windows' block indices over the grid -/

/-- At point `t` the `x` window is at block `(t / 62, 0)`, the three long operands at block `t % 62` along their long
    axis, and the small operands at block `(0, 0)`. -/
theorem idx_facts : ∀ t : Fin cfg0.N,
    win0_0.index t (0 : Fin 2) = t.val / 62 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 62 ∧ win0_3.index t (1 : Fin 2) = 0
    ∧ win0_4.index t (0 : Fin 2) = 0 ∧ win0_4.index t (1 : Fin 2) = t.val % 62
    ∧ win0_5.index t (0 : Fin 2) = 0 ∧ win0_5.index t (1 : Fin 2) = t.val % 62
    ∧ win0_6.index t (0 : Fin 2) = 0 ∧ win0_6.index t (1 : Fin 2) = 0 :=
  (by decide +kernel : ∀ t : Fin grid0.N, _)

/-! ## The arrays the host prepares, as functions of the arguments -/

/-- The padding value: the integer 0 converted to a float is the extended real 0. -/
theorem sitofp_zero : FloatOps.sitofp (F := Ideal) .f32 (0#32) = (0 : EReal) := by
  show (((0#32 : BitVec 32).toInt : ℝ) : EReal) = 0
  simp

/-- The scalar padding operand. -/
abbrev padv : S_.Idx → EReal := sitofp (F := Ideal) .f32 (constantI S_ 32 0#32)

theorem padv_apply (i : S_.Idx) : padv i = 0 := sitofp_zero

/-- The input bias with a leading unit axis. -/
theorem v7_eq (c : Dev nD) : (V m c main_v7 : S1x100.Idx → EReal)
    = shapeCast S1x100 (aBin m c) shapeCasts_S100_S1x100 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The output bias with a leading unit axis. -/
theorem v8_eq (c : Dev nD) : (V m c main_v8 : S1x10.Idx → EReal)
    = shapeCast S1x10 (aBo m c) shapeCasts_S10_S1x10 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The layers' weights flattened to 500000 × 100, then padded with zero rows to 507904 × 100. -/
theorem v5_eq (c : Dev nD) : (V m c main_v5 : S507904x100.Idx → EReal)
    = truncf (F := Ideal) .bf16 (pad S507904x100 ![0, 0] ![7904, 0] ![0, 0]
        (shapeCast S500000x100 (aWp m c) shapeCasts_S5000x100x100_S500000x100) padv
        pads_S500000x100_S507904x100_079040_000 h_S_) bitsLt_bf16_f32 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The layers' biases flattened to 1 × 500000, then padded with zero columns to 1 × 507904. -/
theorem v3_eq (c : Dev nD) : (V m c main_v3 : S1x507904.Idx → EReal)
    = pad S1x507904 ![0, 0] ![0, 7904] ![0, 0]
        (shapeCast S1x500000 (aBp m c) shapeCasts_S5000x100_S1x500000) padv
        pads_S1x500000_S1x507904_000_079040 h_S_ := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The output projection padded with zero columns to 10 × 507904. -/
theorem v6_eq (c : Dev nD) : (V m c main_v6 : S10x507904.Idx → EReal)
    = truncf (F := Ideal) .bf16 (pad S10x507904 ![0, 0] ![0, 7904] ![0, 0]
        (aWo m c) padv
        pads_S10x500000_S10x507904_000_079040 h_S_) bitsLt_bf16_f32 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The padded operands read at an index -/

/-- The padded weights at row `n`, column `i`: layer `n / 100`'s weight row `n % 100` below row 500000, zero from there on. -/
theorem wp_read (W : A3 5000 100 100) (J : S507904x100.Idx) (n : ℕ) (i : Fin 100)
    (h0 : (J 0).val = n) (h1 : (J 1).val = i.val) :
    pad S507904x100 ![0, 0] ![7904, 0] ![0, 0]
        (shapeCast S500000x100 W shapeCasts_S5000x100x100_S500000x100) padv
        pads_S500000x100_S507904x100_079040_000 h_S_ J = wpP W n i := by
  unfold wpP
  by_cases h : n < 500000
  · rw [dif_pos h]
    rw [pad_apply_of_inside ![0, 0] ![7904, 0] ![0, 0] _ padv pads_S500000x100_S507904x100_079040_000 h_S_ J
      (ix2 (⟨n, h⟩ : Fin 500000) i) (by
        intro a
        match a with
        | ⟨0, _⟩ => show (J 0).val = 0 + n * (0 + 1); omega
        | ⟨1, _⟩ => show (J 1).val = 0 + i.val * (0 + 1); omega)]
    exact shapeCast_apply W shapeCasts_S5000x100x100_S500000x100 _
      (ix3 (⟨n / 100, by omega⟩ : Fin 5000) (⟨n % 100, Nat.mod_lt _ (by decide)⟩ : Fin 100) i) (by
        rw [Shape.rowMajor_val_three, Shape.rowMajor_val_two]
        show (n / 100 * 100 + n % 100) * 100 + i.val = n * 100 + i.val
        omega)
  · rw [dif_neg h]
    rw [pad_apply_of_not_inside (s := S500000x100) ![0, 0] ![7904, 0] ![0, 0] _ padv pads_S500000x100_S507904x100_079040_000 h_S_ J 0 (by
        show ¬(0 ≤ (J 0).val ∧ ((J 0).val - 0) % (0 + 1) = 0 ∧ ((J 0).val - 0) / (0 + 1) < 500000)
        omega)]
    exact padv_apply _

/-- The padded biases at column `n`. -/
theorem bp_read (B : A2 5000 100) (J : S1x507904.Idx) (n : ℕ)
    (h0 : (J 0).val = 0) (h1 : (J 1).val = n) :
    pad S1x507904 ![0, 0] ![0, 7904] ![0, 0]
        (shapeCast S1x500000 B shapeCasts_S5000x100_S1x500000) padv
        pads_S1x500000_S1x507904_000_079040 h_S_ J = bpP B n := by
  unfold bpP
  by_cases h : n < 500000
  · rw [dif_pos h]
    rw [pad_apply_of_inside ![0, 0] ![0, 7904] ![0, 0] _ padv pads_S1x500000_S1x507904_000_079040 h_S_ J
      (ix2 (0 : Fin 1) (⟨n, h⟩ : Fin 500000)) (by
        intro a
        match a with
        | ⟨0, _⟩ => show (J 0).val = 0 + 0 * (0 + 1); omega
        | ⟨1, _⟩ => show (J 1).val = 0 + n * (0 + 1); omega)]
    exact shapeCast_apply B shapeCasts_S5000x100_S1x500000 _
      (ix2 (⟨n / 100, by omega⟩ : Fin 5000) (⟨n % 100, Nat.mod_lt _ (by decide)⟩ : Fin 100)) (by
        rw [Shape.rowMajor_val_two, Shape.rowMajor_val_two]
        show n / 100 * 100 + n % 100 = 0 * 500000 + n
        omega)
  · rw [dif_neg h]
    rw [pad_apply_of_not_inside (s := S1x500000) ![0, 0] ![0, 7904] ![0, 0] _ padv pads_S1x500000_S1x507904_000_079040 h_S_ J 1 (by
        show ¬(0 ≤ (J 1).val ∧ ((J 1).val - 0) % (0 + 1) = 0 ∧ ((J 1).val - 0) / (0 + 1) < 500000)
        omega)]
    exact padv_apply _

/-- The padded output projection at row `o`, column `n`. -/
theorem wo_read (W : A2 10 500000) (J : S10x507904.Idx) (o : Fin 10) (n : ℕ)
    (h0 : (J 0).val = o.val) (h1 : (J 1).val = n) :
    pad S10x507904 ![0, 0] ![0, 7904] ![0, 0] W padv
        pads_S10x500000_S10x507904_000_079040 h_S_ J = woP W o n := by
  unfold woP
  by_cases h : n < 500000
  · rw [dif_pos h]
    exact pad_apply_of_inside ![0, 0] ![0, 7904] ![0, 0] W padv pads_S10x500000_S10x507904_000_079040 h_S_ J
      (ix2 o (⟨n, h⟩ : Fin 500000)) (by
        intro a
        match a with
        | ⟨0, _⟩ => show (J 0).val = 0 + o.val * (0 + 1); omega
        | ⟨1, _⟩ => show (J 1).val = 0 + n * (0 + 1); omega)
  · rw [dif_neg h]
    rw [pad_apply_of_not_inside ![0, 0] ![0, 7904] ![0, 0] W padv pads_S10x500000_S10x507904_000_079040 h_S_ J 1 (by
        show ¬(0 ≤ (J 1).val ∧ ((J 1).val - 0) % (0 + 1) = 0 ∧ ((J 1).val - 0) / (0 + 1) < 500000)
        omega)]
    exact padv_apply _

/-! ## The blocks -/

theorem blk_x (c : Dev nD) (t : Fin cfg0.N) (r : Fin 256) (j : Fin 100) :
    (iblk m c 0 t : Vec Ideal S256x100 .f32) (ix2 r j) = aX m c (ix2 (rowOf t r) j) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * (t.val / 62) + r.val; rw [e0]; omega
  | ⟨1, _⟩ => show win0_0.index t 1 * 100 + 1 * j.val = j.val; rw [e1]; omega

theorem blk_win (c : Dev nD) (t : Fin cfg0.N) (i j : Fin 100) :
    (iblk m c 1 t : Vec Ideal S100x100 .f32) (ix2 i j) = aWin m c (ix2 i j) := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 100 + 1 * i.val = i.val; rw [e0]; omega
  | ⟨1, _⟩ => show win0_1.index t 1 * 100 + 1 * j.val = j.val; rw [e1]; omega

theorem blk_bin (c : Dev nD) (t : Fin cfg0.N) (u : Fin 1) (i : Fin 100) :
    (iblk m c 2 t : Vec Ideal S1x100 .f32) (ix2 u i) = aBin m c (ix1 i) := by
  obtain ⟨-, -, -, -, e0, e1, -⟩ := idx_facts t
  unfold iblk
  rw [View.read_apply]
  show (V m c main_v7 : S1x100.Idx → EReal) _ = _
  rw [v7_eq]
  refine Eq.trans ?_ (shapeCast_a_1a_apply (aBin m c) shapeCasts_S100_S1x100 u i)
  congr 1
  funext a
  apply Fin.ext
  match a with
  | ⟨0, _⟩ => show win0_2.index t 0 * 1 + 1 * u.val = u.val; rw [e0]; omega
  | ⟨1, _⟩ => show win0_2.index t 1 * 100 + 1 * i.val = i.val; rw [e1]; omega

theorem blk_wp (c : Dev nD) (t : Fin cfg0.N) (q : Fin 8192) (i : Fin 100) :
    (iblk m c 3 t : Vec Ideal S8192x100 .bf16) (ix2 q i) = wpP (aWp m c) (8192 * (t.val % 62) + q.val) i := by
  obtain ⟨-, -, -, -, -, -, e0, e1, -⟩ := idx_facts t
  unfold iblk
  rw [View.read_apply]
  show (V m c main_v5 : S507904x100.Idx → EReal) _ = _
  rw [v5_eq]
  refine (truncf_apply (ψ := .bf16) _ bitsLt_bf16_f32 _).trans ?_
  exact wp_read (aWp m c) _ _ i
    (by show win0_3.index t 0 * 8192 + 1 * q.val = 8192 * (t.val % 62) + q.val; rw [e0]; omega)
    (by show win0_3.index t 1 * 100 + 1 * i.val = i.val; rw [e1]; omega)

theorem blk_bp (c : Dev nD) (t : Fin cfg0.N) (u : Fin 1) (q : Fin 8192) :
    (iblk m c 4 t : Vec Ideal S1x8192 .f32) (ix2 u q) = bpP (aBp m c) (8192 * (t.val % 62) + q.val) := by
  obtain ⟨-, -, -, -, -, -, -, -, e0, e1, -⟩ := idx_facts t
  unfold iblk
  rw [View.read_apply]
  show (V m c main_v3 : S1x507904.Idx → EReal) _ = _
  rw [v3_eq]
  exact bp_read (aBp m c) _ _
    (by show win0_4.index t 0 * 1 + 1 * u.val = 0; rw [e0]; omega)
    (by show win0_4.index t 1 * 8192 + 1 * q.val = 8192 * (t.val % 62) + q.val; rw [e1]; omega)

theorem blk_wo (c : Dev nD) (t : Fin cfg0.N) (o : Fin 10) (q : Fin 8192) :
    (iblk m c 5 t : Vec Ideal S10x8192 .bf16) (ix2 o q) = woP (aWo m c) o (8192 * (t.val % 62) + q.val) := by
  obtain ⟨-, -, -, -, -, -, -, -, -, -, e0, e1, -⟩ := idx_facts t
  unfold iblk
  rw [View.read_apply]
  show (V m c main_v6 : S10x507904.Idx → EReal) _ = _
  rw [v6_eq]
  refine (truncf_apply (ψ := .bf16) _ bitsLt_bf16_f32 _).trans ?_
  exact wo_read (aWo m c) _ o _
    (by show win0_5.index t 0 * 10 + 1 * o.val = o.val; rw [e0]; omega)
    (by show win0_5.index t 1 * 8192 + 1 * q.val = 8192 * (t.val % 62) + q.val; rw [e1]; omega)

theorem blk_bo (c : Dev nD) (t : Fin cfg0.N) (u : Fin 1) (o : Fin 10) :
    (iblk m c 6 t : Vec Ideal S1x10 .f32) (ix2 u o) = aBo m c (ix1 o) := by
  obtain ⟨-, -, -, -, -, -, -, -, -, -, -, -, e0, e1⟩ := idx_facts t
  unfold iblk
  rw [View.read_apply]
  show (V m c main_v8 : S1x10.Idx → EReal) _ = _
  rw [v8_eq]
  refine Eq.trans ?_ (shapeCast_a_1a_apply (aBo m c) shapeCasts_S10_S1x10 u o)
  congr 1
  funext a
  apply Fin.ext
  match a with
  | ⟨0, _⟩ => show win0_6.index t 0 * 1 + 1 * u.val = u.val; rw [e0]; omega
  | ⟨1, _⟩ => show win0_6.index t 1 * 10 + 1 * o.val = o.val; rw [e1]; omega

end Cert.KernelIdeal.Blocks

end
-- ==== Proof.Invariant.lean ====
/-
  The induction over the grid: after grid point `n` (batch tile `n / 62`, column tile `n % 62`) the first scratch holds the
  hidden activations of the tile's 256 batch rows, and the second the accumulator over the first `8192·(n % 62 + 1)` columns of
  the padded long axis.  A batch tile's first point sets both up; every later point keeps the hidden activations and adds one
  tile of 8192 columns.  At a tile's last point the accumulator covers all 507904 padded columns, which is the sum over the
  500000 true ones, and the output block is that plus the output bias: the specification.
-/
import proofs.«121052_j65850438582500_1_alg».proof.Proof.Spec
import proofs.«121052_j65850438582500_1_alg».proof.Proof.Cases
import proofs.«121052_j65850438582500_1_alg».proof.Proof.Payloads
import proofs.«121052_j65850438582500_1_alg».proof.Proof.Blocks

noncomputable section

namespace Cert.KernelIdeal.Inv

open Cert.KernelIdeal Cert.KernelIdeal.Gen Idealize.ShloMosaic Idealize.ShloMosaic.TcCoe Idealize.SL.Sem
open Idealize.ShloMosaic.ValueIdx Cert.Dense Cert.KernelIdeal.Blocks Cert.KernelIdeal.Cases Cert.KernelIdeal.Payloads

variable (m : (ℓ : Loc nD τ sig) → Buf (Elt Ideal) ℓ)

/-- The specification's functions at core `c`'s arguments. -/
abbrev HID (c : Dev nD) : Fin 512 → Fin 100 → EReal := hid (aX m c) (aWin m c) (aBin m c)
abbrev TERM (c : Dev nD) : Fin 512 → Fin 10 → ℕ → EReal :=
  termP (aX m c) (aWin m c) (aBin m c) (aWp m c) (aBp m c) (aWo m c)
abbrev ACC (c : Dev nD) : Fin 512 → Fin 10 → ℕ → EReal :=
  accP (aX m c) (aWin m c) (aBin m c) (aWp m c) (aBp m c) (aWo m c)
abbrev OUT (c : Dev nD) : Fin 512 → Fin 10 → EReal :=
  out (aX m c) (aWin m c) (aBin m c) (aWp m c) (aBp m c) (aWo m c) (aBo m c)

/-- The input layer's payload on the blocks point `t` reads is the hidden activations of the tile's rows. -/
theorem hidden_first (c : Dev nD) (t : Fin cfg0.N) (r : Fin 256) (i : Fin 100) :
    k0_pay1 (F := Ideal) (bx m c t) (bwin m c t) (bbin m c t) (ix2 r i) = HID m c (rowOf t r) i := by
  refine (pay1_apply (bx m c t) (bwin m c t) (bbin m c t) r i).trans ?_
  show _ = (∑ j : Fin 100, aX m c (ix2 (rowOf t r) j) * aWin m c (ix2 i j)) + aBin m c (ix1 i)
  exact congrArg₂ (· + ·) (Finset.sum_congr rfl fun j _ => congrArg₂ (· * ·) (blk_x m c t r j) (blk_win m c t i j))
    (blk_bin m c t 0 i)

/-- One accumulation step on the blocks point `t` reads, from hidden activations `hs` that are the tile's: the accumulator gains
    the contributions of columns `8192·(t % 62) + j`. -/
theorem step (c : Dev nD) (t : Fin cfg0.N) (hs : Vec Ideal S256x100 .bf16) (acc : Vec Ideal S256x10 .f32)
    (hh : ∀ (r : Fin 256) (i : Fin 100), hs (ix2 r i) = HID m c (rowOf t r) i) (r : Fin 256) (o : Fin 10) :
    k0_pay3 (F := Ideal) hs (bwp m c t) (bbp m c t) acc (bwo m c t) (ix2 r o)
      = acc (ix2 r o) + ∑ j : Fin 8192, TERM m c (rowOf t r) o (8192 * (t.val % 62) + j.val) := by
  refine (pay3_apply hs (bwp m c t) (bbp m c t) acc (bwo m c t) r o).trans ?_
  refine congrArg (acc (ix2 r o) + ·) (Finset.sum_congr rfl fun q _ => ?_)
  show _ = flatP (aX m c) (aWin m c) (aBin m c) (aWp m c) (aBp m c) (rowOf t r) (8192 * (t.val % 62) + q.val)
    * woP (aWo m c) o (8192 * (t.val % 62) + q.val)
  unfold flatP
  exact congrArg₂ (· * ·)
    (congrArg₂ (· + ·) (Finset.sum_congr rfl fun i _ => congrArg₂ (· * ·) (hh r i) (blk_wp m c t q i)) (blk_bp m c t 0 q))
    (blk_wo m c t o q)

/-- What the two scratch buffers hold after point `n`. -/
def Holds (c : Dev nD) (n : ℕ) (h : n < cfg0.N) : Prop :=
  (∀ (r : Fin 256) (i : Fin 100), hidAt m c n h (ix2 r i) = HID m c (rowOf ⟨n, h⟩ r) i)
  ∧ (∀ (r : Fin 256) (o : Fin 10), accAt m c n h (ix2 r o) = ACC m c (rowOf ⟨n, h⟩ r) o (8192 * (n % 62 + 1)))

theorem holds (c : Dev nD) : ∀ (n : ℕ) (h : n < cfg0.N), Holds m c n h := by
  intro n
  induction n using Nat.strong_induction_on with
  | _ n ih =>
    intro h
    have hN : n < 124 := lt_of_lt_of_eq h (show cfg0.N = 124 from N_0)
    by_cases h0 : n % 62 = 0
    · have h1 : ¬n % 62 = 61 := by omega
      obtain ⟨e1, e2⟩ := Cases.first m c ⟨n, h⟩ h0 h1
      refine ⟨fun r i => (congrFun e1 (ix2 r i)).trans (hidden_first m c ⟨n, h⟩ r i), fun r o => ?_⟩
      refine (congrFun e2 (ix2 r o)).trans ((step m c ⟨n, h⟩ _ _ (hidden_first m c ⟨n, h⟩) r o).trans ?_)
      show k0_pay2 (F := Ideal) (ix2 r o) + ∑ j : Fin 8192, TERM m c (rowOf ⟨n, h⟩ r) o (8192 * (n % 62) + j.val)
        = ACC m c (rowOf ⟨n, h⟩ r) o (8192 * (n % 62 + 1))
      rw [h0, pay2_apply, zero_add]
      refine ((accP_step (aX m c) (aWin m c) (aBin m c) (aWp m c) (aBp m c) (aWo m c) (rowOf ⟨n, h⟩ r) o 0).trans ?_).symm
      rw [Nat.mul_zero, accP_zero, zero_add]
    · have hpos : n - 1 < n := by omega
      have hprev : n - 1 < cfg0.N := lt_trans hpos h
      obtain ⟨ih1, ih2⟩ := ih (n - 1) hpos hprev
      have hrow : ∀ r : Fin 256, rowOf ⟨n - 1, hprev⟩ r = rowOf ⟨n, h⟩ r := fun r =>
        Fin.ext (by show 256 * ((n - 1) / 62) + r.val = 256 * (n / 62) + r.val; omega)
      have hcol : (n - 1) % 62 + 1 = n % 62 := by omega
      have hhid : ∀ (r : Fin 256) (i : Fin 100), hidAt m c (n - 1) hprev (ix2 r i) = HID m c (rowOf ⟨n, h⟩ r) i :=
        fun r i => (ih1 r i).trans (by rw [hrow])
      have hacc : ∀ (r : Fin 256) (o : Fin 10),
          accAt m c (n - 1) hprev (ix2 r o) + ∑ j : Fin 8192, TERM m c (rowOf ⟨n, h⟩ r) o (8192 * (n % 62) + j.val)
            = ACC m c (rowOf ⟨n, h⟩ r) o (8192 * (n % 62 + 1)) := fun r o => by
        rw [ih2 r o, hrow, hcol]
        exact (accP_step _ _ _ _ _ _ _ _ _).symm
      by_cases h1 : n % 62 = 61
      · obtain ⟨e1, e2, -⟩ := Cases.last m c ⟨n, h⟩ h0 h1
        refine ⟨fun r i => (congrFun e1 (ix2 r i)).trans (hhid r i), fun r o => ?_⟩
        exact (congrFun e2 (ix2 r o)).trans ((step m c ⟨n, h⟩ _ _ hhid r o).trans (hacc r o))
      · obtain ⟨e1, e2⟩ := Cases.middle m c ⟨n, h⟩ h0 h1
        refine ⟨fun r i => (congrFun e1 (ix2 r i)).trans (hhid r i), fun r o => ?_⟩
        exact (congrFun e2 (ix2 r o)).trans ((step m c ⟨n, h⟩ _ _ hhid r o).trans (hacc r o))

/-- At a batch tile's last point the output block is the specification on the tile's rows. -/
theorem out_last (c : Dev nD) (t : Fin cfg0.N) (h1 : t.val % 62 = 61) (r : Fin 256) (o : Fin 10) :
    outAt m c t.val t.isLt (ix2 r o) = OUT m c (rowOf t r) o := by
  have h0 : ¬t.val % 62 = 0 := by omega
  obtain ⟨-, e2, e3⟩ := Cases.last m c t h0 h1
  have hacc := (holds m c t.val t.isLt).2 r o
  refine (congrFun e3 (ix2 r o)).trans ((pay4_apply _ (bbo m c t) r o).trans ?_)
  refine congrArg₂ (· + ·) (((congrFun e2 (ix2 r o)).symm.trans hacc).trans ?_) (blk_bo m c t 0 o)
  rw [h1]
  exact accP_full _ _ _ _ _ _ _ _

end Cert.KernelIdeal.Inv

end
-- ==== Proof.Final.lean ====
/-
  From blocks to the array.  The output window is written back only at a batch tile's last point; there its block, rows
  `256·(t / 62) …` of the result, holds the specification on those rows.  The two batch tiles' blocks cover the 512 × 10 result,
  so after the run the result array is the specification of the arguments, and the arguments are unchanged.
-/
import proofs.«121052_j65850438582500_1_alg».proof.Proof.Invariant
import proofs.«121052_j65850438582500_1_alg».proof.Proof.Gen.KernelIdeal.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.KernelIdeal.Blocks Cert.KernelIdeal.Cases Cert.KernelIdeal.Inv

variable (m : (ℓ : Loc nD τ sig) → Buf (Elt Ideal) ℓ) (ρ : Dev nD → PrngReg)

/-- The specification of core `c`'s arguments, as contents of the result array. -/
abbrev result (c : Dev nD) : Buf (Elt Ideal) ((c : Thread nD τ).loc main_v9) :=
  outArr (aX m c) (aWin m c) (aBin m c) (aWp m c) (aBp m c) (aWo m c) (aBo m c)

/-- The output window's block index at point `t`: the batch tile, and zero along the ten outputs. -/
theorem out_index : ∀ t : Fin cfg0.N, win0_7.index t (0 : Fin 2) = t.val / 62 ∧ win0_7.index t (1 : Fin 2) = 0 :=
  (by decide +kernel : ∀ t : Fin grid0.N, _)

/-- What a flushing point writes back is its block of the specification. -/
theorem flushed_eq (c : Dev nD) (t : Fin cfg0.N) (hf : (cfg0.win 7).flush t = true) :
    (dats m 0 c).flushed 7 t = ((cfg0.win 7).blk t).view.read (Elt Ideal) (result m c) := by
  have h1 : t.val % 62 = 61 := (flush0_7 t).mp hf
  obtain ⟨i0, i1⟩ := out_index t
  rw [Value.flushed7]
  funext j
  obtain ⟨r, o, rfl⟩ : ∃ (r : Fin 256) (o : Fin 10), j = ix2 r o := ⟨j 0, j 1, eq_ix2 j⟩
  show outAt m c t.val t.isLt (ix2 r o) = result m c (((cfg0.win 7).blk t).view.emb (ix2 r o))
  rw [out_last m c t h1 r o]
  have e : ((cfg0.win 7).blk t).view.emb (ix2 r o) = ix2 (rowOf t r) o := by
    funext a; apply Fin.ext
    match a with
    | ⟨0, _⟩ => show win0_7.index t (0 : Fin 2) * 256 + 1 * r.val = 256 * (t.val / 62) + r.val; omega
    | ⟨1, _⟩ => show win0_7.index t (1 : Fin 2) * 10 + 1 * o.val = o.val; omega
  rw [e]
  rfl

/-- An index of the result is in point `t`'s block iff each coordinate is in the block's range on its axis. -/
theorem mem_blk (t : Fin cfg0.N) (i : S512x10.Idx) :
    i ∈ ((cfg0.win 7).blk t).view.set ↔ ∀ a : Fin 2, win0_7.index t a * S256x10.size a ≤ (i a).val ∧ (i a).val < win0_7.index t a * S256x10.size a + S256x10.size a := by
  show i ∈ ((View.whole main_v9).slice (win0_7.rect t)).set ↔ _
  rw [View.set_slice_whole, Rect.mem_set_unit]
  exact Iff.rfl

/-- Every index of the result lies in the block of its batch tile's last point. -/
theorem cover (i : S512x10.Idx) : ∃ t : Fin cfg0.N, (cfg0.win 7).flush t = true ∧ i ∈ ((cfg0.win 7).blk t).view.set := by
  have hi0 : (i 0).val < 512 := (i 0).isLt
  have hi1 : (i 1).val < 10 := (i 1).isLt
  have hN : cfg0.N = 124 := N_0
  let t : Fin cfg0.N := ⟨62 * ((i 0).val / 256) + 61, by rw [hN]; omega⟩
  have ht : t.val = 62 * ((i 0).val / 256) + 61 := rfl
  obtain ⟨i0, i1⟩ := out_index t
  refine ⟨t, (flush0_7 t).mpr (by rw [ht]; omega), ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 10 ≤ (i 1).val ∧ (i 1).val < win0_7.index t (1 : Fin 2) * 10 + 10; omega

/-- After the run the result array is the specification. -/
theorem final (c : Dev nD) : (dats m 0 c).arrAt 7 cfg0.N = result m c :=
  (dats m 0 c).arrAt_eq_of_cover 7 (result m c) (fun t hf => flushed_eq m c t hf) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.RefSpec.lean ====
/-
  The reference program's result, index by index, is the specification's `outArr`: an input layer, the five thousand
  parallel layers as one contraction over the hidden axis laid out along one axis of length 500000 (column `q` is layer
  `q / 100`, output `q % 100`), and the output projection.
-/
import proofs.«121052_j65850438582500_1_alg».proof.Proof.Gen.ReferenceIdeal.Read
import proofs.«121052_j65850438582500_1_alg».proof.Proof.Spec

noncomputable section

namespace Cert.ReferenceIdeal.RefSpec

open Cert.ReferenceIdeal Cert.ReferenceIdeal.Read Idealize.ShloMosaic Idealize.ShloMosaic.ValueIdx Cert.Dense

/-! Index identities of the input layer: every composed index function of the reference, at an index built from its
    coordinates, is the index built from the expected coordinates. -/

theorem lidx1_eq (b : Fin 512) (i k : Fin 100) : lidx_main_v1 (ix2 b i) k = ix2 b k := by
  funext a; match a with | ⟨0, _⟩ => rfl | ⟨1, _⟩ => rfl

theorem ridx1_eq (b : Fin 512) (i k : Fin 100) : idx_main_v0 (ridx_main_v1 (ix2 b i) k) = ix2 i k := by
  funext a; match a with | ⟨0, _⟩ => rfl | ⟨1, _⟩ => rfl

theorem bias1_eq (b : Fin 512) (i : Fin 100) : idx_main_v2 (idx_main_v3 (ix2 b i)) = ix1 i := by
  funext a; match a with | ⟨0, _⟩ => rfl

/-- The input layer of the reference is `hid`. -/
theorem hid_eq (x0 : (⟨S512x100, .f32⟩ : BufTy).Contents (Elt Ideal)) (x1 : (⟨S100x100, .f32⟩ : BufTy).Contents (Elt Ideal))
    (x2 : (⟨S100, .f32⟩ : BufTy).Contents (Elt Ideal)) (b : Fin 512) (i : Fin 100) :
    val_main_v4 (F := Ideal) x0 x1 x2 (ix2 b i) = hid x0 x1 x2 b i := by
  rw [val_main_v4_apply, val_main_v1_apply, val_main_v3_apply, val_main_v2_apply, Ideal.addf_def, bias1_eq]
  unfold hid
  refine congrArg (· + _) (Finset.sum_congr rfl fun k _ => ?_)
  rw [val_main_v0_apply, lidx1_eq, ridx1_eq]

/-! Index identities of the parallel layers: column `q` of row `b` of the flattened array is read, through the reshape,
    at row `b`, layer `q / 100`, output `q % 100`. -/

theorem lidx5_eq (b : Fin 512) (q : Fin 500000) (k : Fin 100) :
    lidx_main_v5 (idx_main_v9 (ix2 b q)) k = ix2 b k := by
  funext a
  match a with
  | ⟨0, _⟩ =>
    refine Fin.ext ?_
    show (b.val * 500000 + q.val) / 500000 = b.val
    have hq : q.val < 500000 := q.isLt
    omega
  | ⟨1, _⟩ => rfl

theorem ridx5_eq (b : Fin 512) (q : Fin 500000) (k : Fin 100) :
    ridx_main_v5 (idx_main_v9 (ix2 b q)) k
      = ix3 (n0 := 5000) (n1 := 100) ⟨q.val / 100, by omega⟩ ⟨q.val % 100, Nat.mod_lt _ (by decide)⟩ k := by
  funext a
  match a with
  | ⟨0, _⟩ =>
    refine Fin.ext ?_
    show (b.val * 500000 + q.val) / 100 % 5000 = q.val / 100
    have hq : q.val < 500000 := q.isLt
    omega
  | ⟨1, _⟩ =>
    refine Fin.ext ?_
    show (b.val * 500000 + q.val) % 100 = q.val % 100
    omega
  | ⟨2, _⟩ => rfl

theorem bias5_eq (b : Fin 512) (q : Fin 500000) :
    idx_main_v6 (idx_main_v7 (idx_main_v9 (ix2 b q)))
      = ix2 (n0 := 5000) (n1 := 100) ⟨q.val / 100, by omega⟩ ⟨q.val % 100, Nat.mod_lt _ (by decide)⟩ := by
  funext a
  match a with
  | ⟨0, _⟩ =>
    refine Fin.ext ?_
    show (b.val * 500000 + q.val) / 100 % 5000 = q.val / 100
    have hq : q.val < 500000 := q.isLt
    omega
  | ⟨1, _⟩ =>
    refine Fin.ext ?_
    show (b.val * 500000 + q.val) % 100 = q.val % 100
    omega

/-- Column `q` of the reference's flattened parallel layers is `flat`. -/
theorem flat_eq (x0 : (⟨S512x100, .f32⟩ : BufTy).Contents (Elt Ideal)) (x1 : (⟨S100x100, .f32⟩ : BufTy).Contents (Elt Ideal))
    (x2 : (⟨S100, .f32⟩ : BufTy).Contents (Elt Ideal)) (x3 : (⟨S5000x100x100, .f32⟩ : BufTy).Contents (Elt Ideal))
    (x4 : (⟨S5000x100, .f32⟩ : BufTy).Contents (Elt Ideal)) (b : Fin 512) (q : Fin 500000) :
    val_main_v9 (F := Ideal) x0 x1 x2 x3 x4 (ix2 b q) = flat x0 x1 x2 x3 x4 b q := by
  rw [val_main_v9_apply, val_main_v8_apply, val_main_v5_apply, val_main_v7_apply, val_main_v6_apply, Ideal.addf_def,
    bias5_eq]
  unfold flat
  refine congrArg (· + _) (Finset.sum_congr rfl fun k _ => ?_)
  rw [lidx5_eq, ridx5_eq, hid_eq]

/-! Index identities of the output projection. -/

theorem lidx11_eq (b : Fin 512) (o : Fin 10) (k : Fin 500000) : lidx_main_v11 (ix2 b o) k = ix2 b k := by
  funext a; match a with | ⟨0, _⟩ => rfl | ⟨1, _⟩ => rfl

theorem ridx11_eq (b : Fin 512) (o : Fin 10) (k : Fin 500000) :
    idx_main_v10 (ridx_main_v11 (ix2 b o) k) = ix2 o k := by
  funext a; match a with | ⟨0, _⟩ => rfl | ⟨1, _⟩ => rfl

theorem bias11_eq (b : Fin 512) (o : Fin 10) : idx_main_v12 (idx_main_v13 (ix2 b o)) = ix1 o := by
  funext a; match a with | ⟨0, _⟩ => rfl

/-- The reference's last stage is the specification. -/
theorem ref_eq (x0 : (⟨S512x100, .f32⟩ : BufTy).Contents (Elt Ideal)) (x1 : (⟨S100x100, .f32⟩ : BufTy).Contents (Elt Ideal))
    (x2 : (⟨S100, .f32⟩ : BufTy).Contents (Elt Ideal)) (x3 : (⟨S5000x100x100, .f32⟩ : BufTy).Contents (Elt Ideal))
    (x4 : (⟨S5000x100, .f32⟩ : BufTy).Contents (Elt Ideal)) (x5 : (⟨S10x500000, .f32⟩ : BufTy).Contents (Elt Ideal))
    (x6 : (⟨S10, .f32⟩ : BufTy).Contents (Elt Ideal)) :
    val_main_v14 (F := Ideal) x0 x1 x2 x3 x4 x5 x6 = outArr x0 x1 x2 x3 x4 x5 x6 := by
  funext i
  obtain ⟨b, o, rfl⟩ : ∃ (b : Fin 512) (o : Fin 10), i = ix2 b o := ⟨i 0, i 1, eq_ix2 i⟩
  rw [outArr_apply]
  unfold out
  rw [val_main_v14_apply, val_main_v11_apply, val_main_v13_apply, val_main_v12_apply, Ideal.addf_def, bias11_eq]
  have hterm : ∀ k : Fin 500000,
      val_main_v9 (F := Ideal) x0 x1 x2 x3 x4 (lidx_main_v11 (ix2 b o) k)
          * val_main_v10 (F := Ideal) x5 (ridx_main_v11 (ix2 b o) k)
        = flat x0 x1 x2 x3 x4 b k * x5 (ix2 o k) := by
    intro k
    rw [val_main_v10_apply, lidx11_eq, ridx11_eq, flat_eq]
  rw [Finset.sum_congr rfl fun k _ => hterm k]

end Cert.ReferenceIdeal.RefSpec

end
-- ==== Proof.lean ====
/-
  The proof of `Cert.Claim`: a fused two-layer dense network against its jnp reference, over the extended reals.

  The reference computes `h = x·W_inᵀ + b_in`, applies five thousand parallel layers `h·Wp[p]ᵀ + bp[p]` and lays their outputs
  side by side along one axis of length 500000, and projects that with `W_out` and adds `b_out`.  The kernel never builds the
  long intermediate: for each of two batch tiles of 256 rows it keeps `h` and a 256 × 10 accumulator in scratch and walks the
  long axis in 62 tiles of 8192 columns, the operands zero-padded to 507904 columns, adding each tile's partial product to the
  accumulator; at the last tile it writes the accumulator plus `b_out`.  At the ideal values a change of float format is the
  identity and a matrix product is its sum, so both sides are the same sum of the same terms: the tiles regroup the sum
  (commutativity and associativity of `+`) and a padded column contributes `(… + 0)·0 = 0`.  No input needs to be finite.

  The three frames are the generated ones (the reference's is its run with the result dropped), `preserves` is trivial (the
  ideal pass rewrote nothing), and `algebraic` sets the kernel's run, whose result array is the specification of the
  arguments (Proof/Final.lean), beside the reference's run, whose result is the same specification (Proof/RefSpec.lean).
-/
import proofs.«121052_j65850438582500_1_alg».proof.Defs
import proofs.«121052_j65850438582500_1_alg».proof.Proof.Gen.Kernel
import proofs.«121052_j65850438582500_1_alg».proof.Proof.Gen.Kernel.Skeleton
import proofs.«121052_j65850438582500_1_alg».proof.Proof.Gen.Kernel.Launch
import proofs.«121052_j65850438582500_1_alg».proof.Proof.Gen.Kernel.Points
import proofs.«121052_j65850438582500_1_alg».proof.Proof.Gen.Kernel.Frame
import proofs.«121052_j65850438582500_1_alg».proof.Proof.Gen.KernelIdeal
import proofs.«121052_j65850438582500_1_alg».proof.Proof.Gen.KernelIdeal.Skeleton
import proofs.«121052_j65850438582500_1_alg».proof.Proof.Gen.KernelIdeal.Launch
import proofs.«121052_j65850438582500_1_alg».proof.Proof.Gen.KernelIdeal.Points
import proofs.«121052_j65850438582500_1_alg».proof.Proof.Gen.KernelIdeal.Frame
import proofs.«121052_j65850438582500_1_alg».proof.Proof.Gen.ReferenceIdeal
import proofs.«121052_j65850438582500_1_alg».proof.Proof.Gen.Pre_finite_inputs
import proofs.«121052_j65850438582500_1_alg».proof.Proof.Gen.KernelIdeal.Value
import proofs.«121052_j65850438582500_1_alg».proof.Proof.Gen.ReferenceIdeal.Run
import proofs.«121052_j65850438582500_1_alg».proof.Proof.Gen.ReferenceIdeal.Read
import proofs.«121052_j65850438582500_1_alg».proof.Proof.Final
import proofs.«121052_j65850438582500_1_alg».proof.Proof.RefSpec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, run from memories that agree on the arguments, end with the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefSpec.ref_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
